-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200x448x448 : Shape := ⟨3, ![200, 448, 448]⟩
abbrev S200 : Shape := ⟨1, ![200]⟩
abbrev S_ : Shape := ⟨0, ![]⟩

class Facts : Prop where
  bcast_S_S200x448x448 : S_.BroadcastsInDim S200x448x448 (![] : Fin 0 → Fin S200x448x448.rank)
  reducesTo_S200x448x448_S_d0_1_2 : S200x448x448.ReducesTo [0, 1, 2] S_
  h_S_ : 0 < S_.numel
  bcast_S_S200 : S_.BroadcastsInDim S200 (![] : Fin 0 → Fin S200.rank)
  reducesTo_S200_S_d0 : S200.ReducesTo [0] S_

variable [Facts]

def fn {F : FTy → Type} [FloatOps F] (main_arg0 : FVec F S200x448x448 .f32) (main_arg1 : FVec F S200 .f32) (main_arg2 : IVec S200 32) : IVec S_ 1 :=
  let main_v0 : FVec F S200x448x448 .f32 := Host.absf main_arg0
  let main_cst : FVec F S_ .f32 := constant S_ .f32 0x7F800000#32
  let main_v1 : FVec F S200x448x448 .f32 := broadcastInDim S200x448x448 ![] bcast_S_S200x448x448 main_cst
  let main_v2 : IVec S200x448x448 1 := cmpf .olt main_v0 main_v1
  let main_c : IVec S_ 1 := constantI S_ 1 1#1
  let main_v3 : IVec S_ 1 := (fun x v => Host.reduce IntOp.andi x v reducesTo_S200x448x448_S_d0_1_2 h_S_) main_v2 main_c
  let main_v4 : FVec F S200 .f32 := Host.absf main_arg1
  let main_cst_0 : FVec F S_ .f32 := constant S_ .f32 0x7F800000#32
  let main_v5 : FVec F S200 .f32 := broadcastInDim S200 ![] bcast_S_S200 main_cst_0
  let main_v6 : IVec S200 1 := cmpf .olt main_v4 main_v5
  let main_c_1 : IVec S_ 1 := constantI S_ 1 1#1
  let main_v7 : IVec S_ 1 := (fun x v => Host.reduce IntOp.andi x v reducesTo_S200_S_d0 h_S_) main_v6 main_c_1
  let main_v8 : IVec S_ 1 := andi main_v3 main_v7
  main_v8
-- ==== Kernel.lean ====
abbrev S200x448x448 : Shape := ⟨3, ![200, 448, 448]⟩
abbrev S200 : Shape := ⟨1, ![200]⟩
abbrev S200x200704 : Shape := ⟨2, ![200, 200704]⟩
abbrev S200x200 : Shape := ⟨2, ![200, 200]⟩
abbrev S200x1 : Shape := ⟨2, ![200, 1]⟩
abbrev S200x12544 : Shape := ⟨2, ![200, 12544]⟩
abbrev S1x200 : Shape := ⟨2, ![1, 200]⟩

abbrev nBuf : Space → Nat
  | .hbm => 10
  | .vmem => 9
  | .smem => 0
  | _ => 0

abbrev bufTy : (tb : Table) → Fin (tcTables nBuf tb) → BufTy
  | .hbm, ⟨0, _⟩ => ⟨S200x448x448, .f32⟩
  | .hbm, ⟨1, _⟩ => ⟨S200, .f32⟩
  | .hbm, ⟨2, _⟩ => ⟨S200, .i32⟩
  | .hbm, ⟨3, _⟩ => ⟨S200x200704, .f32⟩
  | .hbm, ⟨4, _⟩ => ⟨S200x200, .f32⟩
  | .hbm, ⟨5, _⟩ => ⟨S200x1, .f32⟩
  | .hbm, ⟨6, _⟩ => ⟨S200x1, .i32⟩
  | .hbm, ⟨7, _⟩ => ⟨S1x200, .f32⟩
  | .hbm, ⟨8, _⟩ => ⟨S1x200, .f32⟩
  | .hbm, ⟨9, _⟩ => ⟨S200, .f32⟩
  | .local _ .vmem, ⟨0, _⟩ => ⟨S200x12544, .f32⟩
  | .local _ .vmem, ⟨1, _⟩ => ⟨S200x12544, .f32⟩
  | .local _ .vmem, ⟨2, _⟩ => ⟨S200x200, .f32⟩
  | .local _ .vmem, ⟨3, _⟩ => ⟨S200x1, .f32⟩
  | .local _ .vmem, ⟨4, _⟩ => ⟨S200x200, .f32⟩
  | .local _ .vmem, ⟨5, _⟩ => ⟨S200x1, .f32⟩
  | .local _ .vmem, ⟨6, _⟩ => ⟨S200x1, .i32⟩
  | .local _ .vmem, ⟨7, _⟩ => ⟨S1x200, .f32⟩
  | .local _ .vmem, ⟨8, _⟩ => ⟨S1x200, .f32⟩
  | _, _ => ⟨S200x448x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S200x12544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x200 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S200x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S200x200 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S200x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S200x1 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x200 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x200 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  shapeCasts_S200x448x448_S200x200704 : S200x448x448.ShapeCasts S200x200704
  inb_S200x200_S200x200_0_0 : ∀ a, (![0, 0] : Fin 2 → Nat) a + S200x200.size a ≤ S200x200.size a
  h_S200x200 : 0 < S200x200.numel
  inb_S200x1_S200x1_0_0 : ∀ a, (![0, 0] : Fin 2 → Nat) a + S200x1.size a ≤ S200x1.size a
  h_S200x1 : 0 < S200x1.numel
  inb_S200x12544_S200x12544_0_0 : ∀ a, (![0, 0] : Fin 2 → Nat) a + S200x12544.size a ≤ S200x12544.size a
  h_S200x12544 : 0 < S200x12544.numel
  shapeCasts_S200x12544_S200x12544 : S200x12544.ShapeCasts S200x12544
  bitsLt_bf16_f32 : FTy.bits .bf16 < FTy.bits .f32
  shapeCasts_S200x200_S200x200 : S200x200.ShapeCasts S200x200
  shapeCasts_S200x1_S200x1 : S200x1.ShapeCasts S200x1
  reduces_S200x12544_S200 : S200x12544.Reduces [1] S200
  shapeCasts_S200_S200x1 : S200.ShapeCasts S200x1
  shapeCasts_S200_S1x200 : S200.ShapeCasts S1x200
  transposes_S200x1_p1_0_S1x200 : S200x1.Transposes [1, 0] S1x200
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S200x200 : S1x200.Broadcasts S200x200
  broadcasts_S200x1_S200x200 : S200x1.Broadcasts S200x200
  iota_S200x200_d0_w32 : S200x200.Iotas .tc 32 [0]
  iota_S200x200_d1_w32 : S200x200.Iotas .tc 32 [1]
  natLt_1_32 : 1 < 32
  reduces_S200x200_S200 : S200x200.Reduces [0] S200
  transposes_S1x200_p1_0_S200x1 : S1x200.Transposes [1, 0] S200x1
  shapeCasts_S1x200_S200 : S1x200.ShapeCasts S200
  dot_S200x12544_S200x12544_S200x200_1_1_0_0_n_n_wf : DotDims.WF S200x12544 S200x12544 S200x200 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x12544.size a ≤ S200x200704.size a
  hwx0_0 : ∀ i : grid0.Coords, EltTy.bits .f32 = 32 ∨ (Rect.block (s := S200x200704) S200x12544.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S200x200.size a ≤ S200x200.size a
  hwx0_1 : ∀ i : grid0.Coords, EltTy.bits .f32 = 32 ∨ (Rect.block (s := S200x200) S200x200.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S200x1.size a ≤ S200x1.size a
  hwx0_2 : ∀ i : grid0.Coords, EltTy.bits .f32 = 32 ∨ (Rect.block (s := S200x1) S200x1.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S200x200.size a ≤ S200x200.size a
  hwx1_0 : ∀ i : grid1.Coords, EltTy.bits .f32 = 32 ∨ (Rect.block (s := S200x200) S200x200.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S200x1.size a ≤ S200x1.size a
  hwx1_1 : ∀ i : grid1.Coords, EltTy.bits .f32 = 32 ∨ (Rect.block (s := S200x1) S200x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S200x1.size a ≤ S200x1.size a
  hwx1_2 : ∀ i : grid1.Coords, EltTy.bits .i32 = 32 ∨ (Rect.block (s := S200x1) S200x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x200.size a ≤ S1x200.size a
  hwx1_3 : ∀ i : grid1.Coords, EltTy.bits .f32 = 32 ∨ (Rect.block (s := S1x200) S1x200.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x200.size a ≤ S1x200.size a
  hwx1_4 : ∀ i : grid1.Coords, EltTy.bits .f32 = 32 ∨ (Rect.block (s := S1x200) S1x200.size (cc1_transform_4 i) (hinb1_4 i)).WholeWords (EltTy.packing .f32)

variable [Facts₀]

def dot_S200x12544_S200x12544_S200x200_1_1_0_0_n_n : DotDims S200x12544 S200x12544 S200x200 where
  lhsContracting := [1]
  rhsContracting := [1]
  lhsNonContracting := [0]
  rhsNonContracting := [0]
  lhsBatch := []
  rhsBatch := []
  wf := dot_S200x12544_S200x12544_S200x200_1_1_0_0_n_n_wf

abbrev win0_0 : Pipeline.Window sig grid0 :=
  Pipeline.Window.ofSpec (Memref.whole main_v0) S200x12544.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S200x200.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S200x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1_0) S200x200.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S200x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S200x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x200.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x200.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S200x448x448 : Shape := ⟨3, ![200, 448, 448]⟩
abbrev S200 : Shape := ⟨1, ![200]⟩
abbrev S200x200704 : Shape := ⟨2, ![200, 200704]⟩
abbrev S_ : Shape := ⟨0, ![]⟩
abbrev S200704x200 : Shape := ⟨2, ![200704, 200]⟩
abbrev S200x200 : Shape := ⟨2, ![200, 200]⟩
abbrev S1x200 : Shape := ⟨2, ![1, 200]⟩
abbrev S200x1 : Shape := ⟨2, ![200, 1]⟩

abbrev nBuf : Space → Nat
  | .hbm => 54
  | .vmem => 0
  | .smem => 0
  | _ => 0

abbrev bufTy : (tb : Table) → Fin (tcTables nBuf tb) → BufTy
  | .hbm, ⟨0, _⟩ => ⟨S200x448x448, .f32⟩
  | .hbm, ⟨1, _⟩ => ⟨S200, .f32⟩
  | .hbm, ⟨2, _⟩ => ⟨S200, .i32⟩
  | .hbm, ⟨3, _⟩ => ⟨S200x200704, .f32⟩
  | .hbm, ⟨4, _⟩ => ⟨S_, .f32⟩
  | .hbm, ⟨5, _⟩ => ⟨S200, .f32⟩
  | .hbm, ⟨6, _⟩ => ⟨S200704x200, .f32⟩
  | .hbm, ⟨7, _⟩ => ⟨S200x200, .f32⟩
  | .hbm, ⟨8, _⟩ => ⟨S1x200, .f32⟩
  | .hbm, ⟨9, _⟩ => ⟨S200x1, .f32⟩
  | .hbm, ⟨10, _⟩ => ⟨S200x200, .f32⟩
  | .hbm, ⟨11, _⟩ => ⟨S200x200, .f32⟩
  | .hbm, ⟨12, _⟩ => ⟨S200x200, .f32⟩
  | .hbm, ⟨13, _⟩ => ⟨S200x200, .f32⟩
  | .hbm, ⟨14, _⟩ => ⟨S200x200, .f32⟩
  | .hbm, ⟨15, _⟩ => ⟨S200x200, .i32⟩
  | .hbm, ⟨16, _⟩ => ⟨S_, .i32⟩
  | .hbm, ⟨17, _⟩ => ⟨S200x200, .i32⟩
  | .hbm, ⟨18, _⟩ => ⟨S200x200, .i32⟩
  | .hbm, ⟨19, _⟩ => ⟨S200x200, .i32⟩
  | .hbm, ⟨20, _⟩ => ⟨S200x200, .i1⟩
  | .hbm, ⟨21, _⟩ => ⟨S_, .f32⟩
  | .hbm, ⟨22, _⟩ => ⟨S200x200, .f32⟩
  | .hbm, ⟨23, _⟩ => ⟨S200x200, .f32⟩
  | .hbm, ⟨24, _⟩ => ⟨S1x200, .i32⟩
  | .hbm, ⟨25, _⟩ => ⟨S200x1, .i32⟩
  | .hbm, ⟨26, _⟩ => ⟨S200x200, .i32⟩
  | .hbm, ⟨27, _⟩ => ⟨S200x200, .i32⟩
  | .hbm, ⟨28, _⟩ => ⟨S200x200, .i1⟩
  | .hbm, ⟨29, _⟩ => ⟨S200x200, .f32⟩
  | .hbm, ⟨30, _⟩ => ⟨S200x200, .i32⟩
  | .hbm, ⟨31, _⟩ => ⟨S_, .i32⟩
  | .hbm, ⟨32, _⟩ => ⟨S200x200, .i32⟩
  | .hbm, ⟨33, _⟩ => ⟨S200x200, .i32⟩
  | .hbm, ⟨34, _⟩ => ⟨S200x200, .i32⟩
  | .hbm, ⟨35, _⟩ => ⟨S200x200, .i1⟩
  | .hbm, ⟨36, _⟩ => ⟨S_, .f32⟩
  | .hbm, ⟨37, _⟩ => ⟨S200x200, .f32⟩
  | .hbm, ⟨38, _⟩ => ⟨S200x200, .f32⟩
  | .hbm, ⟨39, _⟩ => ⟨S200x200, .f32⟩
  | .hbm, ⟨40, _⟩ => ⟨S_, .f32⟩
  | .hbm, ⟨41, _⟩ => ⟨S200, .f32⟩
  | .hbm, ⟨42, _⟩ => ⟨S200x1, .f32⟩
  | .hbm, ⟨43, _⟩ => ⟨S200x1, .f32⟩
  | .hbm, ⟨44, _⟩ => ⟨S200x200, .f32⟩
  | .hbm, ⟨45, _⟩ => ⟨S200x200, .f32⟩
  | .hbm, ⟨46, _⟩ => ⟨S200x200, .f32⟩
  | .hbm, ⟨47, _⟩ => ⟨S_, .f32⟩
  | .hbm, ⟨48, _⟩ => ⟨S200x200, .f32⟩
  | .hbm, ⟨49, _⟩ => ⟨S200x200, .f32⟩
  | .hbm, ⟨50, _⟩ => ⟨S200x200, .f32⟩
  | .hbm, ⟨51, _⟩ => ⟨S_, .f32⟩
  | .hbm, ⟨52, _⟩ => ⟨S200, .f32⟩
  | .hbm, ⟨53, _⟩ => ⟨S200, .f32⟩
  | _, _ => ⟨S200x448x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_cst : Ref sig .tc := ⟨.hbm, 21, rfl⟩
abbrev main_call0_v5 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_cst : Ref sig .tc := ⟨.hbm, 36, rfl⟩
abbrev main_call1_v5 : Ref sig .tc := ⟨.hbm, 37, rfl⟩
abbrev main_v18 : Ref sig .tc := ⟨.hbm, 38, rfl⟩
abbrev main_v19 : Ref sig .tc := ⟨.hbm, 39, rfl⟩
abbrev main_cst_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_1 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩

abbrev nD : Nat := 1
abbrev τ : Topo := Topo.v7x

variable {F : FTy → Type} [FloatOps F]

class Facts₀ : Prop where
  shapeCasts_S200x448x448_S200x200704 : S200x448x448.ShapeCasts S200x200704
  reducesTo_S200x200704_S200_d1 : S200x200704.ReducesTo [1] S200
  h_S_ : 0 < S_.numel
  transposes_S200x200704_S200704x200_1_0 : S200x200704.Transposes [1, 0] S200704x200
  bcast_S200_S1x200_1 : S200.BroadcastsInDim S1x200 (![1] : Fin 1 → Fin S1x200.rank)
  bcast_S200_S200x1_0 : S200.BroadcastsInDim S200x1 (![0] : Fin 1 → Fin S200x1.rank)
  bcast_S1x200_S200x200_0_1 : S1x200.BroadcastsInDim S200x200 (![0, 1] : Fin 2 → Fin S200x200.rank)
  bcast_S200x1_S200x200_0_1 : S200x1.BroadcastsInDim S200x200 (![0, 1] : Fin 2 → Fin S200x200.rank)
  bcast_S_S200x200 : S_.BroadcastsInDim S200x200 (![] : Fin 0 → Fin S200x200.rank)
  reducesTo_S200x200_S200_d0 : S200x200.ReducesTo [0] S200
  dot_S200x200704_S200704x200_S200x200_1_0_0_1_n_n_wf : DotDims.WF S200x200704 S200704x200 S200x200 [1] [0] [0] [1] [] []

variable [Facts₀]

def dot_S200x200704_S200704x200_S200x200_1_0_0_1_n_n : DotDims S200x200704 S200704x200 S200x200 where
  lhsContracting := [1]
  rhsContracting := [0]
  lhsNonContracting := [0]
  rhsNonContracting := [1]
  lhsBatch := []
  rhsBatch := []
  wf := dot_S200x200704_S200704x200_S200x200_1_0_0_1_n_n_wf

class Facts : Prop extends Facts₀ where

variable [Facts]
-- ==== Proof.DecayValue.lean ====
/-
  What the second pallas_call leaves, and what the result buffer holds when @main returns.

  The second call runs its body once, on whole arrays: every window's one block is its array. So its result array
  ends at the body's one payload of the four operand arrays as the call finds them: the intersection matrix and the
  row sums the first call left, the labels cast to a column and the scores cast to a row. The result buffer is that
  [1, 200] row cast to a vector of 200.
-/
import proofs.«118613_j10084583211138_1_alg».proof.Proof.Gen.KernelIdeal.Frame
import Idealize.ShloMosaic.Lib.Pipeline.Value
import Idealize.ShloMosaic.Lib.StableHlo.Run
import Idealize.ShloMosaic.Lib.Tactic

noncomputable section

namespace Cert.KernelIdeal.DecayValue

open Cert.KernelIdeal Cert.KernelIdeal.Gen Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- The body's one store covers the output block, and its loads read whole blocks: the block after the body is the
    payload of the four input blocks. -/
theorem out1_4_eq (x0 : Vec F S200x200 .f32) (x1 : Vec F S200x1 .f32) (x2 : Vec F S200x1 .i32) (x3 : Vec F S1x200 .f32) :
    out1_4 x0 x1 x2 x3 = k1_pay1 x0 x1 x2 x3 := by
  unfold out1_4
  rw [View.canon_unit_zero hz]
  simp only [View.ld_unit_zero (S := S200x200) hz, View.ld_unit_zero (S := S200x1) hz, View.ld_unit_zero (S := S1x200) hz]

section Region
variable (V : (c : Dev nD) → (b : Ref sig .tc) → Buf (Elt F) ((c : Thread nD τ).loc b))

/-- Each input window's one block is its whole array. -/
theorem iblk1_0 (c : Dev nD) (t : Fin cfg1.N) : iblk1 V c 0 t = V c main_v1_0 := by
  obtain rfl := fin_N1 t
  unfold iblk1
  have hz' : (fun a => win1_0.index t1_0 a * main_v1_0.ty.shape.size a) = fun _ => 0 := funext fun a => by fin_cases a <;> decide
  exact Memref.read_access_unit_zero (Elt F) main_v1_0 hz' (fun a => by rw [congrFun hz' a]; simp) (V c main_v1_0)

theorem iblk1_1 (c : Dev nD) (t : Fin cfg1.N) : iblk1 V c 1 t = V c main_v1_1 := by
  obtain rfl := fin_N1 t
  unfold iblk1
  have hz' : (fun a => win1_1.index t1_0 a * main_v1_1.ty.shape.size a) = fun _ => 0 := funext fun a => by fin_cases a <;> decide
  exact Memref.read_access_unit_zero (Elt F) main_v1_1 hz' (fun a => by rw [congrFun hz' a]; simp) (V c main_v1_1)

theorem iblk1_2 (c : Dev nD) (t : Fin cfg1.N) : iblk1 V c 2 t = V c main_v2 := by
  obtain rfl := fin_N1 t
  unfold iblk1
  have hz' : (fun a => win1_2.index t1_0 a * main_v2.ty.shape.size a) = fun _ => 0 := funext fun a => by fin_cases a <;> decide
  exact Memref.read_access_unit_zero (Elt F) main_v2 hz' (fun a => by rw [congrFun hz' a]; simp) (V c main_v2)

theorem iblk1_3 (c : Dev nD) (t : Fin cfg1.N) : iblk1 V c 3 t = V c main_v3 := by
  obtain rfl := fin_N1 t
  unfold iblk1
  have hz' : (fun a => win1_3.index t1_0 a * main_v3.ty.shape.size a) = fun _ => 0 := funext fun a => by fin_cases a <;> decide
  exact Memref.read_access_unit_zero (Elt F) main_v3 hz' (fun a => by rw [congrFun hz' a]; simp) (V c main_v3)

/-- The row the second call's body computes from the arrays it finds. -/
abbrev row (c : Dev nD) : Buf (Elt F) ((c : Thread nD τ).loc main_v4) :=
  k1_pay1 (V c main_v1_0) (V c main_v1_1) (V c main_v2) (V c main_v3)

/-- The one point writes back the body's payload of the whole arrays: its block of the result array is the array. -/
theorem flushed1_4 (c : Dev nD) (t : Fin cfg1.N) (hf : (cfg1.win 4).flush t = true) :
    (dat1 V c).flushed 4 t = ((cfg1.win 4).blk t).view.read (Elt F) (row V c) := by
  obtain rfl := fin_N1 t
  show (cfg1.win 4).cut (grid1.coords t1_0) ((dat1 V c).after 4 t1_0) = _
  rw [after1_4, out1_4_eq, iblk1_0, iblk1_1, iblk1_2, iblk1_3]
  have hz' : (fun a => win1_4.index t1_0 a * main_v4.ty.shape.size a) = fun _ => 0 := funext fun a => by fin_cases a <;> decide
  exact (Memref.read_access_unit_zero (Elt F) main_v4 hz' (fun a => by rw [congrFun hz' a]; simp) (row V c)).symm

/-- So the second call's result array ends holding that row. -/
theorem final1_4 (c : Dev nD) : (dat1 V c).arrAt 4 cfg1.N = row V c :=
  (dat1 V c).arrAt_eq_of_cover 4 (row V c) (flushed1_4 V c) fun i =>
    ⟨t1_0, flush1_4 t1_0, by
      show i ∈ ((View.whole main_v4).slice (win1_4.rect t1_0)).set
      rw [View.set_slice_whole, Rect.mem_set_unit]
      intro a
      have h0 : (i 0 : Nat) < 1 := (i 0).isLt
      have h1 : (i 1 : Nat) < 200 := (i 1).isLt
      match a with
      | ⟨0, _⟩ => show win1_4.index t1_0 0 * win1_4.size 0 ≤ (i 0 : Nat) ∧ (i 0 : Nat) < win1_4.index t1_0 0 * win1_4.size 0 + win1_4.xsize (grid1.coords t1_0) 0
                  rw [show win1_4.index t1_0 0 * win1_4.size 0 = 0 from by decide +kernel, show win1_4.xsize (grid1.coords t1_0) 0 = 1 from by decide +kernel]; omega
      | ⟨1, _⟩ => show win1_4.index t1_0 1 * win1_4.size 1 ≤ (i 1 : Nat) ∧ (i 1 : Nat) < win1_4.index t1_0 1 * win1_4.size 1 + win1_4.xsize (grid1.coords t1_0) 1
                  rw [show win1_4.index t1_0 1 * win1_4.size 1 = 0 from by decide +kernel, show win1_4.xsize (grid1.coords t1_0) 1 = 200 from by decide +kernel]; omega⟩

end Region

variable (m : (ℓ : Loc nD τ sig) → Buf (Elt F) ℓ) (ρ : Dev nD → PrngReg)

/-- No host operation before the second call and no window of the first call writes `main_arg1`. -/
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- No host operation before the second call and no window of the first call writes `main_arg2`. -/
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The labels as the second call finds them: the argument cast to a column. -/
theorem V3_main_v2 (c : Dev nD) :
    V3 m ρ c main_v2 = shapeCast S200x1 (m ((c : Thread nD τ).loc main_arg2)) shapeCasts_S200_S200x1 := by
  show StableHlo.after hostOps1 (W2 m ρ c) (Proc.devRef .tc main_v2) = _
  after_results
  rw [W2_main_arg2]
  rfl

/-- The scores as the second call finds them: the argument cast to a row. -/
theorem V3_main_v3 (c : Dev nD) :
    V3 m ρ c main_v3 = shapeCast S1x200 (m ((c : Thread nD τ).loc main_arg1)) shapeCasts_S200_S1x200 := by
  show StableHlo.after hostOps1 (W2 m ρ c) (Proc.devRef .tc main_v3) = _
  after_results
  rw [W2_main_arg1]
  rfl

/-- The first call's two result arrays reach the second call as the first call left them. -/
theorem V3_main_v1_0 (c : Dev nD) : V3 m ρ c main_v1_0 = (dat0 (V1 m ρ) c).arrAt 1 cfg0.N :=
  calc W3 m ρ c (Proc.devRef .tc main_v1_0)
    _ = W2 m ρ c (Proc.devRef .tc main_v1_0) := StableHlo.after_of_forall_not_mem (b := Proc.devRef .tc main_v1_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 1 cfg0.N := W2_arr m ρ c 1

theorem V3_main_v1_1 (c : Dev nD) : V3 m ρ c main_v1_1 = (dat0 (V1 m ρ) c).arrAt 2 cfg0.N :=
  calc W3 m ρ c (Proc.devRef .tc main_v1_1)
    _ = W2 m ρ c (Proc.devRef .tc main_v1_1) := StableHlo.after_of_forall_not_mem (b := Proc.devRef .tc main_v1_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 2 cfg0.N := W2_arr m ρ c 2

/-- The second call's result array when the call returns: the body's payload of the first call's two result arrays,
    the label column and the score row. -/
theorem W4_main_v4 (c : Dev nD) :
    W4 m ρ c (Proc.devRef .tc main_v4)
      = k1_pay1 ((dat0 (V1 m ρ) c).arrAt 1 cfg0.N) ((dat0 (V1 m ρ) c).arrAt 2 cfg0.N)
          (shapeCast S200x1 (m ((c : Thread nD τ).loc main_arg2)) shapeCasts_S200_S200x1)
          (shapeCast S1x200 (m ((c : Thread nD τ).loc main_arg1)) shapeCasts_S200_S1x200) := by
  refine ((W4_arr m ρ c 4).trans (final1_4 (V3 m ρ) c)).trans ?_
  show k1_pay1 (V3 m ρ c main_v1_0) (V3 m ρ c main_v1_1) (V3 m ρ c main_v2) (V3 m ρ c main_v3) = _
  rw [V3_main_v1_0, V3_main_v1_1, V3_main_v2, V3_main_v3]

/-- The result buffer when @main returns: that row cast to a vector. -/
theorem W5_main_v5 (c : Dev nD) :
    W5 m ρ c (Proc.devRef .tc main_v5)
      = shapeCast S200 (k1_pay1 ((dat0 (V1 m ρ) c).arrAt 1 cfg0.N) ((dat0 (V1 m ρ) c).arrAt 2 cfg0.N)
          (shapeCast S200x1 (m ((c : Thread nD τ).loc main_arg2)) shapeCasts_S200_S200x1)
          (shapeCast S1x200 (m ((c : Thread nD τ).loc main_arg1)) shapeCasts_S200_S1x200)) shapeCasts_S1x200_S200 := by
  show StableHlo.after hostOps2 (W4 m ρ c) (Proc.devRef .tc main_v5) = _
  after_results
  rw [W4_main_v4]
  rfl

end Cert.KernelIdeal.DecayValue

end
-- ==== Proof.Spec.lean ====
/-
  The score decay of matrix NMS as a function of the mask intersection matrix, the mask sums, the labels and the
  scores, entry by entry on the extended reals.

  With I (i, j) the intersection of masks i and j and s i the size of mask i, the overlap of the pair is
  I (i, j) / (s j + s i - I (i, j)); it counts only above the diagonal (i < j) and only between masks of one label.
  The compensation of mask i is the largest overlap in column i, the decay of the pair (i, j) is
  exp (2 * (comp i ^ 2 - overlap (i, j) ^ 2)), and the score of mask j is scaled by the smallest decay in column j.
-/
import Idealize.ShloMosaic.PureOps.Ideal
import Idealize.ShloMosaic.Lib.ValueIdx

noncomputable section

namespace Cert.Spec

open Idealize.ShloMosaic

/-- The overlap matrix: intersection over union above the diagonal, times the same-label indicator above the diagonal. -/
def dmat (I : Fin 200 → Fin 200 → EReal) (s : Fin 200 → EReal) (lab : Fin 200 → BitVec 32) (i j : Fin 200) : EReal :=
  (if i.val < j.val then Ideal.div (I i j) (s j + s i - I i j) else 0)
    * (if i.val < j.val then (if lab j = lab i then 1 else 0) else 0)

/-- The largest entry of column `i`, from minus infinity. -/
def comp (D : Fin 200 → Fin 200 → EReal) (i : Fin 200) : EReal :=
  (Finset.univ : Finset (Fin 200)).fold max (Ideal.ofBits .f32 0xFF800000#32) (fun r => D r i)

/-- The smallest decay of column `j`, from plus infinity. -/
def coeff (D : Fin 200 → Fin 200 → EReal) (j : Fin 200) : EReal :=
  (Finset.univ : Finset (Fin 200)).fold min (Ideal.ofBits .f32 0x7F800000#32)
    (fun i => Ideal.exp (Ideal.ofBits .f32 0x40000000#32 * (comp D i * comp D i - D i j * D i j)))

/-- The decayed score of mask `j`. -/
def out (I : Fin 200 → Fin 200 → EReal) (s : Fin 200 → EReal) (lab : Fin 200 → BitVec 32) (sc : Fin 200 → EReal)
    (j : Fin 200) : EReal :=
  sc j * coeff (dmat I s lab) j

/-- The intersection of rows `a` and `b` of a 0/1 matrix of 200704 columns: the sum of the products. -/
def inter (x : Fin 200 → Fin 200704 → EReal) (a b : Fin 200) : EReal := ∑ k : Fin 200704, x a k * x b k

/-- The size of row `a`: the sum of its entries. -/
def rowSum (x : Fin 200 → Fin 200704 → EReal) (a : Fin 200) : EReal := ∑ k : Fin 200704, x a k

end Cert.Spec

end
-- ==== Proof.BlockSums.lean ====
/-
  One grid point of the first pallas_call, entry by entry, and the regrouping of a sum over 200704 columns.

  The matrix product of a [200, 12544] block with itself, both operands contracted along the columns, is at (a, b) the
  sum over the block's columns k of x (a, k) x (b, k), added to the accumulator; the lane reduction is at a the sum over
  the block's columns of x (a, k). Column q of 200704 is column k of block s with q = 12544 s + k, so a sum over all
  columns is the sum over the sixteen blocks of the sums inside each block.
-/
import proofs.«118613_j10084583211138_1_alg».proof.Proof.Gen.KernelIdeal.Skeleton
import proofs.«118613_j10084583211138_1_alg».proof.Proof.Spec
import Idealize.ShloMosaic.Lib.ValueIdx
import Idealize.ShloMosaic.Lib.Pipeline.Value
import Idealize.ShloMosaic.PureOps.Ideal.Laws
import Mathlib.Algebra.BigOperators.Fin
import Mathlib.Logic.Equiv.Fin.Basic

noncomputable section

namespace Cert.KernelIdeal.BlockSums

open Cert.KernelIdeal Cert.KernelIdeal.Gen Idealize.ShloMosaic Idealize.ShloMosaic.ValueIdx

/-- The reset value of the intersection accumulator is zero everywhere. -/
theorem k0_pay1_apply (a b : Fin 200) : k0_pay1 (F := Ideal) (ix2 a b) = 0 := by
  show Ideal.ofBits .f32 0x00000000#32 = 0
  exact Ideal.ofBits_zero_f32

/-- The reset value of the row-sum accumulator is zero everywhere. -/
theorem k0_pay2_apply (a : Fin 200) : k0_pay2 (F := Ideal) (ix2 a (0 : Fin 1)) = 0 := by
  show Ideal.ofBits .f32 0x00000000#32 = 0
  exact Ideal.ofBits_zero_f32

/-- The block read by the two accumulations is the loaded block itself. -/
theorem k0_pay3_eq (x : Vec Ideal S200x12544 .f32) : k0_pay3 (F := Ideal) x = x := by
  unfold k0_pay3
  exact shapeCast_self x _

/-! ## The block's contraction: both operands are the block, contracted along its columns -/

theorem lhs_dot_0 (i : S200x200.Idx) (q : dot_S200x12544_S200x12544_S200x200_1_1_0_0_n_n.contr.Idx) :
    (dot_S200x12544_S200x12544_S200x200_1_1_0_0_n_n.lhsIdx i q 0).val = (i 0).val := by
  unfold DotDims.lhsIdx
  rw [dif_neg (show ¬(0 : Fin S200x12544.rank) ∈ dot_S200x12544_S200x12544_S200x200_1_1_0_0_n_n.lhsBatch by decide), dif_pos (show (0 : Fin S200x12544.rank) ∈ dot_S200x12544_S200x12544_S200x200_1_1_0_0_n_n.lhsNonContracting by decide)]
  rfl
theorem lhs_dot_1 (i : S200x200.Idx) (q : dot_S200x12544_S200x12544_S200x200_1_1_0_0_n_n.contr.Idx) :
    (dot_S200x12544_S200x12544_S200x200_1_1_0_0_n_n.lhsIdx i q 1).val = (q ⟨0, by decide⟩).val :=
  dot_S200x12544_S200x12544_S200x200_1_1_0_0_n_n.lhsIdx_val_of_single rfl i q
theorem rhs_dot_0 (i : S200x200.Idx) (q : dot_S200x12544_S200x12544_S200x200_1_1_0_0_n_n.contr.Idx) :
    (dot_S200x12544_S200x12544_S200x200_1_1_0_0_n_n.rhsIdx i q 0).val = (i 1).val := by
  unfold DotDims.rhsIdx
  rw [dif_neg (show ¬(0 : Fin S200x12544.rank) ∈ dot_S200x12544_S200x12544_S200x200_1_1_0_0_n_n.rhsBatch by decide), dif_pos (show (0 : Fin S200x12544.rank) ∈ dot_S200x12544_S200x12544_S200x200_1_1_0_0_n_n.rhsNonContracting by decide)]
  rfl
theorem rhs_dot_1 (i : S200x200.Idx) (q : dot_S200x12544_S200x12544_S200x200_1_1_0_0_n_n.contr.Idx) :
    (dot_S200x12544_S200x12544_S200x200_1_1_0_0_n_n.rhsIdx i q 1).val = (q ⟨0, by decide⟩).val :=
  dot_S200x12544_S200x12544_S200x200_1_1_0_0_n_n.rhsIdx_val_of_single rfl i q

/-- The product of the block with itself along its columns, read at (a, b): the sum of the products of rows a and b. -/
theorem matmul_block_apply (x : Vec Ideal S200x12544 .f32) (a b : Fin 200) :
    (matmul dot_S200x12544_S200x12544_S200x200_1_1_0_0_n_n none
      (truncf .bf16 x bitsLt_bf16_f32 : FVec Ideal S200x12544 .bf16) (truncf .bf16 x bitsLt_bf16_f32 : FVec Ideal S200x12544 .bf16)
      (constant S200x200 .f32 0x00000000#32)) (ix2 a b) = ∑ k : Fin 12544, x (ix2 a k) * x (ix2 b k) := by
  refine (Ideal.matmul_constant_zero_apply dot_S200x12544_S200x12544_S200x200_1_1_0_0_n_n none _ _ (ix2 a b)).trans ?_
  rw [← Equiv.sum_comp (contrEquiv1 dot_S200x12544_S200x12544_S200x200_1_1_0_0_n_n 12544 rfl rfl).symm]
  refine Finset.sum_congr rfl fun k _ => ?_
  have hk := contrEquiv1_symm_val dot_S200x12544_S200x12544_S200x200_1_1_0_0_n_n 12544 rfl rfl k
  have el : dot_S200x12544_S200x12544_S200x200_1_1_0_0_n_n.lhsIdx (ix2 a b) ((contrEquiv1 dot_S200x12544_S200x12544_S200x200_1_1_0_0_n_n 12544 rfl rfl).symm k) = ix2 a k := funext fun c => Fin.ext (by
    match c with
    | ⟨0, _⟩ => exact lhs_dot_0 _ _
    | ⟨1, _⟩ => exact (lhs_dot_1 _ _).trans hk)
  have er : dot_S200x12544_S200x12544_S200x200_1_1_0_0_n_n.rhsIdx (ix2 a b) ((contrEquiv1 dot_S200x12544_S200x12544_S200x200_1_1_0_0_n_n 12544 rfl rfl).symm k) = ix2 b k := funext fun c => Fin.ext (by
    match c with
    | ⟨0, _⟩ => exact rhs_dot_0 _ _
    | ⟨1, _⟩ => exact (rhs_dot_1 _ _).trans hk)
  rw [el, er]
  rfl

/-- One grid point adds to the intersection accumulator the block's own product of rows `a` and `b`. -/
theorem k0_pay4_apply (x : Vec Ideal S200x12544 .f32) (acc : Vec Ideal S200x200 .f32) (a b : Fin 200) :
    k0_pay4 (F := Ideal) x acc (ix2 a b) = acc (ix2 a b) + ∑ k : Fin 12544, x (ix2 a k) * x (ix2 b k) := by
  unfold k0_pay4
  rw [k0_pay3_eq]
  refine (addf_apply _ _ _).trans ?_
  rw [shapeCast_self, matmul_block_apply]

/-! ## The block's row sums -/

/-- The sum of the block along its columns, read at row a. -/
theorem rowsum_block_apply (x : Vec Ideal S200x12544 .f32) (a : Fin 200) :
    (multiReduction (F := Ideal) .add [1] S200 x 0x00000000#32 reduces_S200x12544_S200 (.inl rfl) rfl) (ix1 a)
      = ∑ k : Fin 12544, x (ix2 a k) := by
  refine (Ideal.multiReduction_add_single x _ reduces_S200x12544_S200 (.inl rfl) rfl (ix1 a)).trans ?_
  refine Finset.sum_congr rfl fun k _ => ?_
  exact congrArg x (funext fun c => Fin.ext (by match c with | ⟨0, _⟩ => rfl | ⟨1, _⟩ => rfl))

/-- One grid point adds to the row-sum accumulator the block's own sum of row `a`. -/
theorem k0_pay5_apply (x : Vec Ideal S200x12544 .f32) (acc : Vec Ideal S200x1 .f32) (a : Fin 200) :
    k0_pay5 (F := Ideal) x acc (ix2 a (0 : Fin 1)) = acc (ix2 a (0 : Fin 1)) + ∑ k : Fin 12544, x (ix2 a k) := by
  unfold k0_pay5
  rw [k0_pay3_eq]
  refine (addf_apply _ _ _).trans ?_
  rw [shapeCast_self]
  refine congrArg (acc (ix2 a (0 : Fin 1)) + ·) ?_
  refine (shapeCast_apply _ shapeCasts_S200_S200x1 (ix2 a (0 : Fin 1)) (ix1 a) (by
    rw [Shape.rowMajor_val_one, Shape.rowMajor_val_two]
    show a.val = a.val * 1 + 0
    omega)).trans ?_
  exact rowsum_block_apply x a

/-! ## The sixteen blocks of columns -/

/-- Sixteen blocks of 12544 columns, block by block, are the 200704 columns. -/
def blockEquiv : Fin 16 × Fin 12544 ≃ Fin 200704 :=
  (finProdFinEquiv (m := 16) (n := 12544)).trans (finCongr rfl)

theorem blockEquiv_val (s : Fin 16) (k : Fin 12544) : (blockEquiv (s, k)).val = s.val * 12544 + k.val := by
  show k.val + 12544 * s.val = s.val * 12544 + k.val
  omega

/-- Sixteen consecutive blocks of 12544 columns make up the 200704 columns: a sum over all columns is the sum over
    the blocks of the sums inside each block. -/
theorem sum_blocks (f : Fin 200704 → EReal) :
    ∑ s ∈ Finset.range 16, ∑ k : Fin 12544, (if h : s * 12544 + k.val < 200704 then f ⟨s * 12544 + k.val, h⟩ else 0)
      = ∑ q : Fin 200704, f q := by
  rw [Finset.sum_range, ← Equiv.sum_comp blockEquiv f, Fintype.sum_prod_type]
  refine Finset.sum_congr rfl fun s _ => Finset.sum_congr rfl fun k _ => ?_
  have hs := s.isLt
  have hk := k.isLt
  rw [dif_pos (by omega)]
  exact congrArg f (Fin.ext (blockEquiv_val s k).symm)

end Cert.KernelIdeal.BlockSums

end
-- ==== Proof.StatsValue.lean ====
/-
  What the first pallas_call leaves in its two result arrays.

  The call walks the 200704 columns of the flattened masks in sixteen blocks of 12544. At the first block it clears
  both accumulators and then, like at every later block, adds the block's contribution: to entry (a, b) of the
  intersection accumulator the sum over the block's columns of x (a, k) x (b, k), to entry a of the size accumulator the
  sum over the block's columns of x (a, k). The accumulators' blocks never move, so they are written back once, after
  the last block, and hold the sums over the sixteen blocks of the block sums: the sums over all 200704 columns.
-/
import proofs.«118613_j10084583211138_1_alg».proof.Proof.Gen.KernelIdeal.Frame
import proofs.«118613_j10084583211138_1_alg».proof.Proof.Spec
import proofs.«118613_j10084583211138_1_alg».proof.Proof.BlockSums
import Idealize.ShloMosaic.Lib.ValueIdx
import Idealize.ShloMosaic.Lib.Pipeline.Value
import Idealize.ShloMosaic.Lib.StableHlo.Run
import Idealize.ShloMosaic.Lib.Tactic

noncomputable section

namespace Cert.KernelIdeal.StatsValue

open Cert.KernelIdeal Cert.KernelIdeal.Gen Idealize.ShloMosaic Idealize.ShloMosaic.TcCoe Idealize.SL.Sem Idealize.ShloMosaic.ValueIdx
open Idealize.ShloMosaic.Pipeline (Dat)

/-! ## What one grid point leaves in each accumulator -/

section Pieces
variable {F : FTy → Type} [FloatOps F]

/-- The zero offsets of a whole-block access, however they are spelt. -/
theorem hz : (![0, 0] : Fin 2 → Nat) = fun _ => 0 := funext fun a => by fin_cases a <;> rfl

/-- Away from the first grid point the first accumulator, holding `xo1`, is left at `xo1` plus the block's products. -/
theorem out_B_1 (c : Dev nD) (i : grid0.Coords) (a1 : Memref sig .tc .vmem S200x12544 .f32) (h1 : a1.IsWhole)
    (a2 : Memref sig .tc .vmem S200x200 .f32) (h2 : a2.IsWhole) (a3 : Memref sig .tc .vmem S200x1 .f32) (h3 : a3.IsWhole)
    (hc : ¬cond0_0 i) (x : Vec F S200x12544 .f32) (xo1 : Vec F S200x200 .f32) (xo2 : Vec F S200x1 .f32) :
    out0_B_1 c i a1 h1 a2 h2 a3 h3 hc x xo1 xo2 = k0_pay4 x xo1 := by
  unfold out0_B_1
  rw [View.read_writes_eq_canon _ _ _ (cover0_B_1 c i a1 h1 a2 h2 a3 h3 hc x xo1 xo2)]
  unfold kernelRun0_B
  dsimp only
  sl_unfold_words
  rw [View.canon_unit_zero hz]
  simp only [View.readAt_eq_ld, h1.read_unread, h2.read_unread, View.ld_unit_zero (S := S200x12544) hz, View.ld_unit_zero (S := S200x200) hz]

/-- Away from the first grid point the second accumulator, holding `xo2`, is left at `xo2` plus the block's row sums. -/
theorem out_B_2 (c : Dev nD) (i : grid0.Coords) (a1 : Memref sig .tc .vmem S200x12544 .f32) (h1 : a1.IsWhole)
    (a2 : Memref sig .tc .vmem S200x200 .f32) (h2 : a2.IsWhole) (a3 : Memref sig .tc .vmem S200x1 .f32) (h3 : a3.IsWhole)
    (hc : ¬cond0_0 i) (x : Vec F S200x12544 .f32) (xo1 : Vec F S200x200 .f32) (xo2 : Vec F S200x1 .f32) :
    out0_B_2 c i a1 h1 a2 h2 a3 h3 hc x xo1 xo2 = k0_pay5 x xo2 := by
  unfold out0_B_2
  rw [View.read_writes_eq_canon _ _ _ (cover0_B_2 c i a1 h1 a2 h2 a3 h3 hc x xo1 xo2)]
  unfold kernelRun0_B
  dsimp only
  sl_unfold_words
  rw [View.canon_unit_zero hz]
  simp only [View.readAt_eq_ld, h1.read_unread, h3.read_unread, View.ld_unit_zero (S := S200x12544) hz, View.ld_unit_zero (S := S200x1) hz]

/-- At the first grid point the first accumulator is reset and then left at the reset value plus the block's products. -/
theorem out_A_1 (c : Dev nD) (i : grid0.Coords) (a1 : Memref sig .tc .vmem S200x12544 .f32) (h1 : a1.IsWhole)
    (a2 : Memref sig .tc .vmem S200x200 .f32) (h2 : a2.IsWhole) (a3 : Memref sig .tc .vmem S200x1 .f32) (h3 : a3.IsWhole)
    (hc : cond0_0 i) (x : Vec F S200x12544 .f32) :
    out0_A_1 c i a1 h1 a2 h2 a3 h3 hc x = k0_pay4 x k0_pay1 := by
  unfold out0_A_1
  rw [View.read_writes_eq_canon _ _ _ (cover0_A_1 c i a1 h1 a2 h2 a3 h3 hc x)]
  unfold kernelRun0_A
  dsimp only
  sl_unfold_words
  rw [View.canon_cons_unit_zero (S := S200x200) hz, View.readCov_unit_zero (S := S200x200) _ hz]
  simp only [View.readAt_eq_ld, h1.read_unread, View.ld_unit_zero (S := S200x12544) hz]

/-- At the first grid point the second accumulator is reset and then left at the reset value plus the block's row sums. -/
theorem out_A_2 (c : Dev nD) (i : grid0.Coords) (a1 : Memref sig .tc .vmem S200x12544 .f32) (h1 : a1.IsWhole)
    (a2 : Memref sig .tc .vmem S200x200 .f32) (h2 : a2.IsWhole) (a3 : Memref sig .tc .vmem S200x1 .f32) (h3 : a3.IsWhole)
    (hc : cond0_0 i) (x : Vec F S200x12544 .f32) :
    out0_A_2 c i a1 h1 a2 h2 a3 h3 hc x = k0_pay5 x k0_pay2 := by
  unfold out0_A_2
  rw [View.read_writes_eq_canon _ _ _ (cover0_A_2 c i a1 h1 a2 h2 a3 h3 hc x)]
  unfold kernelRun0_A
  dsimp only
  sl_unfold_words
  rw [View.canon_cons_unit_zero (S := S200x1) hz, View.readCov_unit_zero (S := S200x1) _ hz]
  simp only [View.readAt_eq_ld, h1.read_unread, View.ld_unit_zero (S := S200x12544) hz]
end Pieces

variable (m : (ℓ : Loc nD τ sig) → Buf (Elt Ideal) ℓ) (ρ : Dev nD → PrngReg)

/-- The flattened masks on core `c`: row `a`, column `k` of the launch contents of the first argument reshaped to
    [200, 200704]. -/
def flat (c : Dev nD) (a : Fin 200) (k : Fin 200704) : EReal :=
  (shapeCast S200x200704 (m ((c.tc : Thread nD τ).loc main_arg0)) shapeCasts_S200x448x448_S200x200704
    : Vec Ideal S200x200704 .f32) (ix2 a k)

/-! ## The block a grid point reads -/

/-- The block of flattened masks that grid point `t` reads. -/
abbrev xblk (c : Dev nD) (t : Fin cfg0.N) : Vec Ideal S200x12544 .f32 := iblk0 (V1 m ρ) c 0 t

/-- The block of grid point `t` is all rows and the `t`-th stretch of 12544 columns. -/
theorem idx_facts : ∀ t : Fin cfg0.N, win0_0.index t 1 = t.val ∧ win0_0.index t 0 = 0 :=
  (by decide +kernel : ∀ t : Fin grid0.N, win0_0.index t 1 = t.val ∧ win0_0.index t 0 = 0)

/-- When the first pallas_call is entered its operand is the first argument reshaped to [200, 200704]. -/
theorem entry_v0 (c : Dev nD) : (V1 m ρ c main_v0 : S200x200704.Idx → EReal)
    = shapeCast S200x200704 (m ((c.tc : Thread nD τ).loc main_arg0)) shapeCasts_S200x448x448_S200x200704 := by
  show StableHlo.after hostOps0 _ (Proc.devRef .tc main_v0) = _
  after_results
  rfl

/-- Row `a`, column `k` of the block of grid point `t` is row `a`, column `12544 t + k` of the flattened masks. -/
theorem xblk_apply (c : Dev nD) (t : Fin cfg0.N) (a : Fin 200) (k : Fin 12544) (h : t.val * 12544 + k.val < 200704) :
    xblk m ρ c t (ix2 a k) = flat m c a ⟨t.val * 12544 + k.val, h⟩ := by
  unfold xblk iblk0
  rw [View.read_apply]
  show V1 m ρ c main_v0 _ = _
  rw [entry_v0]
  unfold flat
  congr 1
  funext ax
  apply Fin.ext
  match ax with
  | ⟨0, _⟩ => show win0_0.index t 0 * 200 + 1 * a.val = a.val; rw [(idx_facts t).2]; omega
  | ⟨1, _⟩ => show win0_0.index t 1 * 12544 + 1 * k.val = t.val * 12544 + k.val; rw [(idx_facts t).1]; omega

/-! ## The accumulators after each grid point -/

/-- The share of block `s` in the intersection of rows `a` and `b`. -/
def interBlock (c : Dev nD) (a b : Fin 200) (s : ℕ) : EReal :=
  ∑ k : Fin 12544, (if h : s * 12544 + k.val < 200704 then flat m c a ⟨s * 12544 + k.val, h⟩ * flat m c b ⟨s * 12544 + k.val, h⟩ else 0)

/-- The share of block `s` in the sum of row `a`. -/
def sumBlock (c : Dev nD) (a : Fin 200) (s : ℕ) : EReal :=
  ∑ k : Fin 12544, (if h : s * 12544 + k.val < 200704 then flat m c a ⟨s * 12544 + k.val, h⟩ else 0)

/-- The products of rows `a` and `b` inside the block of grid point `t`, summed. -/
theorem xblk_inter (c : Dev nD) (t : Fin cfg0.N) (a b : Fin 200) :
    ∑ k : Fin 12544, xblk m ρ c t (ix2 a k) * xblk m ρ c t (ix2 b k) = interBlock m c a b t.val := by
  have hN : t.val < 16 := lt_of_lt_of_eq t.isLt (show cfg0.N = 16 from N_0)
  unfold interBlock
  refine Finset.sum_congr rfl fun k _ => ?_
  have hk : t.val * 12544 + k.val < 200704 := by have := k.isLt; omega
  rw [dif_pos hk, xblk_apply m ρ c t a k hk, xblk_apply m ρ c t b k hk]

/-- Row `a` inside the block of grid point `t`, summed. -/
theorem xblk_sum (c : Dev nD) (t : Fin cfg0.N) (a : Fin 200) :
    ∑ k : Fin 12544, xblk m ρ c t (ix2 a k) = sumBlock m c a t.val := by
  have hN : t.val < 16 := lt_of_lt_of_eq t.isLt (show cfg0.N = 16 from N_0)
  unfold sumBlock
  refine Finset.sum_congr rfl fun k _ => ?_
  have hk : t.val * 12544 + k.val < 200704 := by have := k.isLt; omega
  rw [dif_pos hk, xblk_apply m ρ c t a k hk]

/-- After grid point `n` the first accumulator holds the shares of blocks `0 … n` of every intersection. -/
theorem acc1_eq (c : Dev nD) (a b : Fin 200) : ∀ (n : ℕ) (h : n < cfg0.N),
    (outsAt0 (V1 m ρ) c n h).1 (ix2 a b) = ∑ s ∈ Finset.range (n + 1), interBlock m c a b s
  | 0, h => by
    rw [outsAt0_A (V1 m ρ) c ⟨0, h⟩ rfl]
    dsimp only
    refine (congrFun (out_A_1 (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) ((hcond0_0 ⟨0, h⟩).mpr rfl) (xblk m ρ c ⟨0, h⟩)) (ix2 a b)).trans ?_
    refine (BlockSums.k0_pay4_apply (xblk m ρ c ⟨0, h⟩) (k0_pay1 (F := Ideal)) a b).trans ?_
    rw [BlockSums.k0_pay1_apply, zero_add, Finset.sum_range_one]
    exact xblk_inter m ρ c ⟨0, h⟩ a b
  | n + 1, h => by
    have hN : cfg0.N = 16 := N_0
    have hB : ¬(⟨n + 1, h⟩ : Fin cfg0.N).val % 16 = 0 := by dsimp only; omega
    rw [outsAt0_B (V1 m ρ) c ⟨n + 1, h⟩ hB]
    dsimp only
    refine (congrFun (out_B_1 (F := Ideal) c (grid0.coords ⟨n + 1, h⟩) (ms0_0 ⟨n + 1, h⟩) (hs0_0 ⟨n + 1, h⟩) (ms0_1 ⟨n + 1, h⟩)
      (hs0_1 ⟨n + 1, h⟩) (ms0_2 ⟨n + 1, h⟩) (hs0_2 ⟨n + 1, h⟩) (fun hh => hB ((hcond0_0 ⟨n + 1, h⟩).mp hh)) (xblk m ρ c ⟨n + 1, h⟩)
      (outsAt0 (V1 m ρ) c n (Nat.lt_of_succ_lt h)).1 (outsAt0 (V1 m ρ) c n (Nat.lt_of_succ_lt h)).2) (ix2 a b)).trans ?_
    refine (BlockSums.k0_pay4_apply (xblk m ρ c ⟨n + 1, h⟩) (outsAt0 (V1 m ρ) c n (Nat.lt_of_succ_lt h)).1 a b).trans ?_
    rw [acc1_eq c a b n (Nat.lt_of_succ_lt h), Finset.sum_range_succ _ (n + 1)]
    exact congrArg _ (xblk_inter m ρ c ⟨n + 1, h⟩ a b)

/-- After grid point `n` the second accumulator holds the shares of blocks `0 … n` of every row sum. -/
theorem acc2_eq (c : Dev nD) (a : Fin 200) : ∀ (n : ℕ) (h : n < cfg0.N),
    (outsAt0 (V1 m ρ) c n h).2 (ix2 a (0 : Fin 1)) = ∑ s ∈ Finset.range (n + 1), sumBlock m c a s
  | 0, h => by
    rw [outsAt0_A (V1 m ρ) c ⟨0, h⟩ rfl]
    dsimp only
    refine (congrFun (out_A_2 (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) ((hcond0_0 ⟨0, h⟩).mpr rfl) (xblk m ρ c ⟨0, h⟩)) (ix2 a (0 : Fin 1))).trans ?_
    refine (BlockSums.k0_pay5_apply (xblk m ρ c ⟨0, h⟩) (k0_pay2 (F := Ideal)) a).trans ?_
    rw [BlockSums.k0_pay2_apply, zero_add, Finset.sum_range_one]
    exact xblk_sum m ρ c ⟨0, h⟩ a
  | n + 1, h => by
    have hN : cfg0.N = 16 := N_0
    have hB : ¬(⟨n + 1, h⟩ : Fin cfg0.N).val % 16 = 0 := by dsimp only; omega
    rw [outsAt0_B (V1 m ρ) c ⟨n + 1, h⟩ hB]
    dsimp only
    refine (congrFun (out_B_2 (F := Ideal) c (grid0.coords ⟨n + 1, h⟩) (ms0_0 ⟨n + 1, h⟩) (hs0_0 ⟨n + 1, h⟩) (ms0_1 ⟨n + 1, h⟩)
      (hs0_1 ⟨n + 1, h⟩) (ms0_2 ⟨n + 1, h⟩) (hs0_2 ⟨n + 1, h⟩) (fun hh => hB ((hcond0_0 ⟨n + 1, h⟩).mp hh)) (xblk m ρ c ⟨n + 1, h⟩)
      (outsAt0 (V1 m ρ) c n (Nat.lt_of_succ_lt h)).1 (outsAt0 (V1 m ρ) c n (Nat.lt_of_succ_lt h)).2) (ix2 a (0 : Fin 1))).trans ?_
    refine (BlockSums.k0_pay5_apply (xblk m ρ c ⟨n + 1, h⟩) (outsAt0 (V1 m ρ) c n (Nat.lt_of_succ_lt h)).2 a).trans ?_
    rw [acc2_eq c a n (Nat.lt_of_succ_lt h), Finset.sum_range_succ _ (n + 1)]
    exact congrArg _ (xblk_sum m ρ c ⟨n + 1, h⟩ a)

/-! ## The result arrays -/

/-- The grid has sixteen points; the last is point 15. -/
theorem last_lt : 15 < cfg0.N := by rw [show cfg0.N = 16 from N_0]; decide

/-- What the first accumulator holds after the last grid point, as contents of the first result array. -/
abbrev result1 (c : Dev nD) : Buf (Elt Ideal) ((c : Thread nD τ).loc main_v1_0) := (outsAt0 (V1 m ρ) c 15 last_lt).1

/-- What the second accumulator holds after the last grid point, as contents of the second result array. -/
abbrev result2 (c : Dev nD) : Buf (Elt Ideal) ((c : Thread nD τ).loc main_v1_1) := (outsAt0 (V1 m ρ) c 15 last_lt).2

/-- The one write-back of the first accumulator, at the last point, writes the whole array. -/
theorem flushed1_eq (c : Dev nD) (t : Fin cfg0.N) (hf : (cfg0.win 1).flush t = true) :
    (dat0 (V1 m ρ) c).flushed 1 t = ((cfg0.win 1).blk t).view.read (Elt Ideal) (result1 m ρ c) := by
  have hN : cfg0.N = 16 := N_0
  have h15 : t.val = 15 := by have := (flush0_1 t).mp hf; have := t.isLt; omega
  obtain rfl : t = t0_15 := Fin.ext h15
  show (cfg0.win 1).cut (grid0.coords t0_15) ((dat0 (V1 m ρ) c).after 1 t0_15) = _
  rw [after0_1]
  have hz' : (fun a => win0_1.index t0_15 a * main_v1_0.ty.shape.size a) = fun _ => 0 := funext fun a => by fin_cases a <;> decide
  exact (Memref.read_access_unit_zero (Elt Ideal) main_v1_0 hz' (fun a => by rw [congrFun hz' a]; simp) (result1 m ρ c)).symm

/-- So the first result array ends holding the first accumulator after the last point. -/
theorem final1 (c : Dev nD) : (dat0 (V1 m ρ) c).arrAt 1 cfg0.N = result1 m ρ c :=
  (dat0 (V1 m ρ) c).arrAt_eq_of_cover 1 (result1 m ρ c) (flushed1_eq m ρ c) fun i =>
    ⟨t0_15, (flush0_1 t0_15).mpr rfl, by
      show i ∈ ((View.whole main_v1_0).slice (win0_1.rect t0_15)).set
      rw [View.set_slice_whole, Rect.mem_set_unit]
      intro a
      have h0 : (i 0 : Nat) < 200 := (i 0).isLt
      have h1 : (i 1 : Nat) < 200 := (i 1).isLt
      match a with
      | ⟨0, _⟩ => show win0_1.index t0_15 0 * win0_1.size 0 ≤ (i 0 : Nat) ∧ (i 0 : Nat) < win0_1.index t0_15 0 * win0_1.size 0 + win0_1.xsize (grid0.coords t0_15) 0
                  rw [show win0_1.index t0_15 0 * win0_1.size 0 = 0 from by decide +kernel, show win0_1.xsize (grid0.coords t0_15) 0 = 200 from by decide +kernel]; omega
      | ⟨1, _⟩ => show win0_1.index t0_15 1 * win0_1.size 1 ≤ (i 1 : Nat) ∧ (i 1 : Nat) < win0_1.index t0_15 1 * win0_1.size 1 + win0_1.xsize (grid0.coords t0_15) 1
                  rw [show win0_1.index t0_15 1 * win0_1.size 1 = 0 from by decide +kernel, show win0_1.xsize (grid0.coords t0_15) 1 = 200 from by decide +kernel]; omega⟩

/-- The one write-back of the second accumulator, at the last point, writes the whole array. -/
theorem flushed2_eq (c : Dev nD) (t : Fin cfg0.N) (hf : (cfg0.win 2).flush t = true) :
    (dat0 (V1 m ρ) c).flushed 2 t = ((cfg0.win 2).blk t).view.read (Elt Ideal) (result2 m ρ c) := by
  have hN : cfg0.N = 16 := N_0
  have h15 : t.val = 15 := by have := (flush0_2 t).mp hf; have := t.isLt; omega
  obtain rfl : t = t0_15 := Fin.ext h15
  show (cfg0.win 2).cut (grid0.coords t0_15) ((dat0 (V1 m ρ) c).after 2 t0_15) = _
  rw [after0_2]
  have hz' : (fun a => win0_2.index t0_15 a * main_v1_1.ty.shape.size a) = fun _ => 0 := funext fun a => by fin_cases a <;> decide
  exact (Memref.read_access_unit_zero (Elt Ideal) main_v1_1 hz' (fun a => by rw [congrFun hz' a]; simp) (result2 m ρ c)).symm

/-- So the second result array ends holding the second accumulator after the last point. -/
theorem final2 (c : Dev nD) : (dat0 (V1 m ρ) c).arrAt 2 cfg0.N = result2 m ρ c :=
  (dat0 (V1 m ρ) c).arrAt_eq_of_cover 2 (result2 m ρ c) (flushed2_eq m ρ c) fun i =>
    ⟨t0_15, (flush0_2 t0_15).mpr rfl, by
      show i ∈ ((View.whole main_v1_1).slice (win0_2.rect t0_15)).set
      rw [View.set_slice_whole, Rect.mem_set_unit]
      intro a
      have h0 : (i 0 : Nat) < 200 := (i 0).isLt
      have h1 : (i 1 : Nat) < 1 := (i 1).isLt
      match a with
      | ⟨0, _⟩ => show win0_2.index t0_15 0 * win0_2.size 0 ≤ (i 0 : Nat) ∧ (i 0 : Nat) < win0_2.index t0_15 0 * win0_2.size 0 + win0_2.xsize (grid0.coords t0_15) 0
                  rw [show win0_2.index t0_15 0 * win0_2.size 0 = 0 from by decide +kernel, show win0_2.xsize (grid0.coords t0_15) 0 = 200 from by decide +kernel]; omega
      | ⟨1, _⟩ => show win0_2.index t0_15 1 * win0_2.size 1 ≤ (i 1 : Nat) ∧ (i 1 : Nat) < win0_2.index t0_15 1 * win0_2.size 1 + win0_2.xsize (grid0.coords t0_15) 1
                  rw [show win0_2.index t0_15 1 * win0_2.size 1 = 0 from by decide +kernel, show win0_2.xsize (grid0.coords t0_15) 1 = 1 from by decide +kernel]; omega⟩

/-- After the first pallas_call its first result array holds the intersection matrix of the flattened masks. -/
theorem inter_final (c : Dev nD) (a b : Fin 200) :
    (show Vec Ideal S200x200 .f32 from (dat0 (V1 m ρ) c).arrAt 1 cfg0.N) (ix2 a b) = Cert.Spec.inter (flat m c) a b := by
  refine (congrFun (final1 m ρ c) (ix2 a b)).trans ?_
  refine (acc1_eq m ρ c a b 15 last_lt).trans ?_
  exact BlockSums.sum_blocks (fun q => flat m c a q * flat m c b q)

/-- After the first pallas_call its second result array holds the row sums of the flattened masks. -/
theorem sum_final (c : Dev nD) (a : Fin 200) :
    (show Vec Ideal S200x1 .f32 from (dat0 (V1 m ρ) c).arrAt 2 cfg0.N) (ix2 a (0 : Fin 1)) = Cert.Spec.rowSum (flat m c) a := by
  refine (congrFun (final2 m ρ c) (ix2 a (0 : Fin 1))).trans ?_
  refine (acc2_eq m ρ c a 15 last_lt).trans ?_
  exact BlockSums.sum_blocks (fun q => flat m c a q)

end Cert.KernelIdeal.StatsValue

end
-- ==== Proof.DecayPayload.lean ====
/-
  The second pallas_call's one payload, entry `j` of its [1, 200] row, is the decayed score of mask `j`.

  The payload is read stage by stage: the overlap matrix (intersection over union above the diagonal, times the
  same-label indicator above the diagonal: a transposed column broadcast along the rows reads the column at the column
  index, the column broadcast along the columns reads it at the row index, "column iota > row iota" is i < j on words
  below 200, a one-bit compare widened and converted is 1 or 0), its column maxima from minus infinity, the decay
  exp (2 (comp_i ^ 2 - overlap_ij ^ 2)), its column minima from plus infinity, and the product with the score.
-/
import proofs.«118613_j10084583211138_1_alg».proof.Proof.Gen.KernelIdeal.Skeleton
import proofs.«118613_j10084583211138_1_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws
import Idealize.ShloMosaic.Lib.StableHlo.Predicate

noncomputable section

namespace Cert.KernelIdeal.DecayPayload

open Cert.KernelIdeal Cert.KernelIdeal.Gen Idealize.ShloMosaic Idealize.ShloMosaic.ValueIdx

/-- The overlap matrix of the kernel: the two selects' product. -/
def ovl (I : Vec Ideal S200x200 .f32) (S : Vec Ideal S200x1 .f32) (lab : Vec Ideal S200x1 .i32) : FVec Ideal S200x200 .f32 :=
  have v1 : FVec Ideal S200x200 .f32 := shapeCast S200x200 I shapeCasts_S200x200_S200x200
  have v3 : FVec Ideal S200x1 .f32 := shapeCast S200x1 S shapeCasts_S200x1_S200x1
  have v4 : FVec Ideal S1x200 .f32 := transpose S1x200 [1, 0] v3 transposes_S200x1_p1_0_S1x200
  have v6 : IVec S200x1 32 := shapeCast S200x1 lab shapeCasts_S200x1_S200x1
  have v7 : IVec S1x200 32 := transpose S1x200 [1, 0] v6 transposes_S200x1_p1_0_S1x200
  have v10 : FVec Ideal S200x200 .f32 := broadcastTo S200x200 v4 broadcasts_S1x200_S200x200
  have v11 : FVec Ideal S200x200 .f32 := broadcastTo S200x200 v3 broadcasts_S200x1_S200x200
  have v12 : FVec Ideal S200x200 .f32 := addf v10 v11
  have v13 : FVec Ideal S200x200 .f32 := subf v12 v1
  have v14 : FVec Ideal S200x200 .f32 := divf v1 v13
  have v15 : IVec S200x200 32 := iota .tc S200x200 32 [0] iota_S200x200_d0_w32
  have v16 : IVec S200x200 32 := iota .tc S200x200 32 [1] iota_S200x200_d1_w32
  have v17 : IVec S200x200 1 := cmpi .sgt v16 v15
  have cst : Ideal .f32 := Scalar.ofBits .f32 0x00000000#32
  have v18 : FVec Ideal S200x200 .f32 := broadcast S200x200 cst
  have v19 : FVec Ideal S200x200 .f32 := select v17 v14 v18
  have v20 : IVec S200x200 32 := broadcastTo S200x200 v7 broadcasts_S1x200_S200x200
  have v21 : IVec S200x200 32 := broadcastTo S200x200 v6 broadcasts_S200x1_S200x200
  have v22 : IVec S200x200 1 := cmpi .eq v20 v21
  have v23 : IVec S200x200 32 := extui 32 v22 natLt_1_32
  have v24 : FVec Ideal S200x200 .f32 := sitofp .f32 v23
  have cst_7 : Ideal .f32 := Scalar.ofBits .f32 0x00000000#32
  have v25 : FVec Ideal S200x200 .f32 := broadcast S200x200 cst_7
  have v26 : FVec Ideal S200x200 .f32 := select v17 v24 v25
  mulf v19 v26

/-- The column maxima of the overlap matrix. -/
def cmx (D : FVec Ideal S200x200 .f32) : FVec Ideal S200 .f32 :=
  multiReduction (F := Ideal) .maximumf [0] S200 D 0xFF800000#32 reduces_S200x200_S200 (.inl rfl) rfl

/-- The decay matrix from the overlap matrix. -/
def dec (D : FVec Ideal S200x200 .f32) : FVec Ideal S200x200 .f32 :=
  have v28 : FVec Ideal S200 .f32 := cmx D
  have v29 : FVec Ideal S1x200 .f32 := shapeCast S1x200 v28 shapeCasts_S200_S1x200
  have v30 : FVec Ideal S200x1 .f32 := transpose S200x1 [1, 0] v29 transposes_S1x200_p1_0_S200x1
  have v31 : FVec Ideal S200x1 .f32 := mulf v30 v30
  have v32 : FVec Ideal S200x200 .f32 := mulf D D
  have v33 : FVec Ideal S200x200 .f32 := broadcastTo S200x200 v31 broadcasts_S200x1_S200x200
  have v34 : FVec Ideal S200x200 .f32 := subf v33 v32
  have cst_9 : Ideal .f32 := Scalar.ofBits .f32 0x40000000#32
  have v35 : FVec Ideal S200x200 .f32 := broadcast S200x200 cst_9
  have v36 : FVec Ideal S200x200 .f32 := mulf v35 v34
  exp v36

/-- The column minima of the decay matrix. -/
def cmn (E : FVec Ideal S200x200 .f32) : FVec Ideal S200 .f32 :=
  multiReduction (F := Ideal) .minimumf [0] S200 E 0x7F800000#32 reduces_S200x200_S200 (.inl rfl) rfl

/-- The payload is the scores row times the column minima of the decay matrix of the overlap matrix. -/
theorem k1_pay1_eq (I : Vec Ideal S200x200 .f32) (S : Vec Ideal S200x1 .f32) (lab : Vec Ideal S200x1 .i32)
    (sc : Vec Ideal S1x200 .f32) :
    k1_pay1 (F := Ideal) I S lab sc
      = mulf (shapeCast S1x200 sc shapeCasts_S1x200_S1x200)
          (shapeCast S1x200 (cmn (dec (ovl I S lab))) shapeCasts_S200_S1x200) := rfl

/-! ## Layout operations of the kernel read at an index -/

/-- A column `[200, 1]` broadcast to `[200, 200]` reads, at `(p, q)`, the column at `p`. -/
theorem broadcastTo_col_apply {α : Type} (v : S200x1.Idx → α) (h : S200x1.Broadcasts S200x200) (p q : Fin 200) :
    broadcastTo S200x200 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- A row `[1, 200]` broadcast to `[200, 200]` reads, at `(p, q)`, the row at `q`. -/
theorem broadcastTo_row_apply {α : Type} (v : S1x200.Idx → α) (h : S1x200.Broadcasts S200x200) (p q : Fin 200) :
    broadcastTo S200x200 v h (ix2 p q) = v (ix2 (0 : Fin 1) q) :=
  broadcastTo_1b_ab_apply v h p q

/-- The transpose of a column reads, at `(0, q)`, the column at `q`. -/
theorem transpose_col_apply {α : Type} (v : S200x1.Idx → α) (h : S200x1.Transposes [1, 0] S1x200) (u : Fin 1) (q : Fin 200) :
    transpose S1x200 [1, 0] v h (ix2 u q) = v (ix2 q u) :=
  transpose_ix2_apply v h u q

/-- The transpose of a row reads, at `(p, 0)`, the row at `p`. -/
theorem transpose_row_apply {α : Type} (v : S1x200.Idx → α) (h : S1x200.Transposes [1, 0] S200x1) (p : Fin 200) (u : Fin 1) :
    transpose S200x1 [1, 0] v h (ix2 p u) = v (ix2 u p) :=
  transpose_ix2_apply v h p u

/-- The row counter at `(p, q)` is `p`. -/
theorem iota_row_apply (h : S200x200.Iotas .tc 32 [0]) (p q : Fin 200) :
    iota .tc S200x200 32 [0] h (ix2 p q) = BitVec.ofNat 32 p.val := by
  show BitVec.ofNat 32 (0 * 200 + p.val) = _
  rw [Nat.zero_mul, Nat.zero_add]

/-- The column counter at `(p, q)` is `q`. -/
theorem iota_col_apply (h : S200x200.Iotas .tc 32 [1]) (p q : Fin 200) :
    iota .tc S200x200 32 [1] h (ix2 p q) = BitVec.ofNat 32 q.val := by
  show BitVec.ofNat 32 (0 * 200 + q.val) = _
  rw [Nat.zero_mul, Nat.zero_add]

/-- Two counters below 200 compare signed as their values. -/
theorem sgt_counter (p q : Fin 200) :
    IntOp.cmpi .sgt (BitVec.ofNat 32 q.val) (BitVec.ofNat 32 p.val) = if p.val < q.val then 1#1 else 0#1 := by
  have hp : p.val < 2 ^ 31 := by have := p.isLt; omega
  have hq : q.val < 2 ^ 31 := by have := q.isLt; omega
  have key := StableHlo.Predicate.slt_ofNat_iff p.val q.val hp hq
  show BitVec.ofBool ((BitVec.ofNat 32 p.val).slt (BitVec.ofNat 32 q.val)) = _
  by_cases h : p.val < q.val
  · rw [if_pos h]; exact key.mpr h
  · rw [if_neg h]; exact eq_zero_of_ne_one fun h1 => h (key.mp h1)

/-- The strict upper triangle's mask at `(p, q)`. -/
theorem upper_apply (h0 : S200x200.Iotas .tc 32 [0]) (h1 : S200x200.Iotas .tc 32 [1]) (p q : Fin 200) :
    cmpi .sgt (iota .tc S200x200 32 [1] h1) (iota .tc S200x200 32 [0] h0) (ix2 p q) = if p.val < q.val then 1#1 else 0#1 := by
  show IntOp.cmpi .sgt (iota .tc S200x200 32 [1] h1 (ix2 p q)) (iota .tc S200x200 32 [0] h0 (ix2 p q)) = _
  rw [iota_row_apply, iota_col_apply]
  exact sgt_counter p q

/-- A select on the upper triangle's mask is the `if`. -/
theorem select_upper {α : Type} (p q : Fin 200) (a b : α) :
    Scalar.select (if p.val < q.val then 1#1 else 0#1) a b = if p.val < q.val then a else b := by
  by_cases h : p.val < q.val
  · rw [if_pos h, if_pos h]; exact select_one a b
  · rw [if_neg h, if_neg h]; exact select_zero a b

/-- The equality bit of two words, widened and converted, is one where they are equal and zero elsewhere. -/
theorem sitofp_eq_bit (x y : BitVec 32) :
    (FloatOps.sitofp (F := Ideal) .f32 ((IntOp.cmpi .eq x y).setWidth 32) : EReal) = if x = y then 1 else 0 := by
  show ((((IntOp.cmpi .eq x y).setWidth 32).toInt : ℝ) : EReal) = _
  rw [toInt_setWidth_bit]
  by_cases h : x = y
  · rw [if_pos h]
    have : IntOp.cmpi .eq x y = 1#1 := by
      show BitVec.ofBool (x == y) = 1#1
      rw [beq_iff_eq.mpr h]; rfl
    rw [this]; norm_num
  · rw [if_neg h]
    have : IntOp.cmpi .eq x y = 0#1 := by
      show BitVec.ofBool (x == y) = 0#1
      rw [show (x == y) = false from beq_eq_false_iff_ne.mpr h]; rfl
    rw [this]; norm_num

/-- A vector comparison of words at an index compares the elements. -/
theorem cmpi_apply {s : Shape} {w : Nat} (c : CmpIPredicate) (x y : IVec s w) (i : s.Idx) :
    cmpi c x y i = IntOp.cmpi c (x i) (y i) := rfl

/-! ## The overlap matrix -/

/-- The kernel's overlap matrix at `(p, q)` is the specification's: the intersection over the union above the diagonal,
    times the same-label indicator above the diagonal. -/
theorem ovl_apply (I : Vec Ideal S200x200 .f32) (S : Vec Ideal S200x1 .f32) (lab : Vec Ideal S200x1 .i32) (p q : Fin 200) :
    ovl I S lab (ix2 p q)
      = Cert.Spec.dmat (fun a b => I (ix2 a b)) (fun a => S (ix2 a (0 : Fin 1))) (fun a => lab (ix2 a (0 : Fin 1))) p q := by
  unfold ovl Cert.Spec.dmat
  simp only [shapeCast_self]
  rw [mulf_apply, select_apply, select_apply, upper_apply, select_upper, select_upper, divf_apply, subf_apply, addf_apply,
    sitofp_apply, extui_apply, cmpi_apply, broadcast_apply]
  simp only [broadcastTo_row_apply, broadcastTo_col_apply, transpose_col_apply]
  rw [sitofp_eq_bit]
  show (if p.val < q.val then _ else Ideal.ofBits .f32 0x00000000#32) * (if p.val < q.val then _ else Ideal.ofBits .f32 0x00000000#32) = _
  rw [Ideal.ofBits_zero_f32, transpose_col_apply S _ 0 q, transpose_col_apply lab _ 0 q]

/-! ## The two column reductions -/

/-- A vector exponential at an index is the exponential of the element. -/
theorem exp_apply {s : Shape} {φ : FTy} (x : FVec Ideal s φ) (i : s.Idx) : exp x i = Ideal.exp (x i) := rfl

/-- The source index over column `i` whose row is `k`. -/
theorem lift_col (h : S200x200.Reduces [0] S200) (i k : Fin 200) : h.lift (ix1 i) k = ix2 k i := by
  funext c
  refine Fin.ext ?_
  match c with
  | ⟨0, _⟩ => rfl
  | ⟨1, _⟩ => rfl

/-- The column maximum at `i`: the fold of `max` from minus infinity down column `i`. -/
theorem cmx_apply (D : FVec Ideal S200x200 .f32) (i : Fin 200) :
    cmx D (ix1 i)
      = (Finset.univ : Finset (Fin 200)).fold max (Ideal.ofBits .f32 0xFF800000#32) (fun r => D (ix2 r i)) := by
  unfold cmx
  refine (Ideal.multiReduction_maximumf_single D 0xFF800000#32 reduces_S200x200_S200 (.inl rfl) rfl (ix1 i)).trans ?_
  show (Finset.univ : Finset (Fin 200)).fold max (Ideal.ofBits .f32 0xFF800000#32)
      (D ∘ (reduces_S200x200_S200).lift (ix1 i)) = _
  congr 1
  funext r
  exact congrArg D (lift_col _ i r)

/-- The column minimum at `j`: the fold of `min` from plus infinity down column `j`. -/
theorem cmn_apply (E : FVec Ideal S200x200 .f32) (j : Fin 200) :
    cmn E (ix1 j)
      = (Finset.univ : Finset (Fin 200)).fold min (Ideal.ofBits .f32 0x7F800000#32) (fun i => E (ix2 i j)) := by
  unfold cmn
  refine (multiReduction_minimumf_eq_fold (F := Ideal) E 0x7F800000#32 reduces_S200x200_S200 (.inl rfl) rfl (ix1 j)).trans ?_
  refine ((reduces_S200x200_S200).fold_filter_drop_single FloatOps.minimumf _ E (ix1 j)).trans ?_
  show (Finset.univ : Finset (Fin 200)).fold min (Ideal.ofBits .f32 0x7F800000#32)
      (E ∘ (reduces_S200x200_S200).lift (ix1 j)) = _
  congr 1
  funext r
  exact congrArg E (lift_col _ j r)

/-! ## The decay matrix -/

/-- The decay of the pair `(p, q)`: the exponential of twice the squared column maximum of `p` less the squared entry. -/
theorem dec_apply (D : FVec Ideal S200x200 .f32) (p q : Fin 200) :
    dec D (ix2 p q)
      = Ideal.exp (Ideal.ofBits .f32 0x40000000#32 * (cmx D (ix1 p) * cmx D (ix1 p) - D (ix2 p q) * D (ix2 p q))) := by
  unfold dec
  simp only []
  rw [exp_apply, mulf_apply, broadcast_apply, subf_apply, broadcastTo_col_apply, mulf_apply, mulf_apply,
    transpose_row_apply _ _ p 0, shapeCast_a_1a_apply _ _ 0 p]
  rfl

/-! ## The payload at an index -/

/-- The column maximum of the kernel's overlap matrix is the specification's compensation. -/
theorem cmx_ovl (I : Vec Ideal S200x200 .f32) (S : Vec Ideal S200x1 .f32) (lab : Vec Ideal S200x1 .i32) (i : Fin 200) :
    cmx (ovl I S lab) (ix1 i)
      = Cert.Spec.comp (Cert.Spec.dmat (fun a b => I (ix2 a b)) (fun a => S (ix2 a (0 : Fin 1)))
          (fun a => lab (ix2 a (0 : Fin 1)))) i := by
  rw [cmx_apply]
  unfold Cert.Spec.comp
  exact congrArg (fun f => Finset.fold max (Ideal.ofBits .f32 0xFF800000#32) f Finset.univ)
    (funext fun r => ovl_apply I S lab r i)

/-- The payload at column `j` is the specification's decayed score of mask `j`. -/
theorem k1_pay1_apply (I : Vec Ideal S200x200 .f32) (S : Vec Ideal S200x1 .f32) (lab : Vec Ideal S200x1 .i32)
    (sc : Vec Ideal S1x200 .f32) (j : Fin 200) :
    k1_pay1 (F := Ideal) I S lab sc (ix2 (0 : Fin 1) j)
      = Cert.Spec.out (fun a b => I (ix2 a b)) (fun a => S (ix2 a (0 : Fin 1))) (fun a => lab (ix2 a (0 : Fin 1)))
          (fun b => sc (ix2 (0 : Fin 1) b)) j := by
  rw [k1_pay1_eq, mulf_apply, shapeCast_self, shapeCast_a_1a_apply _ _ 0 j, cmn_apply]
  unfold Cert.Spec.out Cert.Spec.coeff
  refine congrArg (sc (ix2 (0 : Fin 1) j) * ·) ?_
  refine congrArg (fun f => Finset.fold min (Ideal.ofBits .f32 0x7F800000#32) f Finset.univ) (funext fun i => ?_)
  rw [dec_apply, cmx_ovl, ovl_apply]

end Cert.KernelIdeal.DecayPayload

end
-- ==== Proof.RefValue.lean ====
/-
  The reference's result, entry `j`, is the decayed score of mask `j`.

  The stages of the reference program are read one at a time at an index: the matrix product of the flattened masks with
  their transpose is the intersection matrix, the row sum is the mask size (the initial value of the sum is zero), the
  upper triangle is a select on "row + 0 >= column", which keeps exactly the entries with row < column, the label compare
  converted to a float is 1 or 0, the two reductions along the rows are the folds of max from minus infinity and of min
  from plus infinity over the rows.
-/
import proofs.«118613_j10084583211138_1_alg».proof.Proof.Gen.ReferenceIdeal.Run
import proofs.«118613_j10084583211138_1_alg».proof.Proof.Gen.ReferenceIdeal.Read
import proofs.«118613_j10084583211138_1_alg».proof.Proof.Spec
import Idealize.ShloMosaic.PureOps.Reduce
import Idealize.ShloMosaic.PureOps.Ideal.Laws
import Idealize.ShloMosaic.Lib.StableHlo.Predicate
import Mathlib.Data.Finset.Fold
import Mathlib.Algebra.BigOperators.Group.Finset.Basic

noncomputable section

namespace Cert.ReferenceIdeal.RefValue

open Cert.ReferenceIdeal Cert.ReferenceIdeal.Gen Cert.ReferenceIdeal.Read Idealize.ShloMosaic Idealize.ShloMosaic.ValueIdx

/-- The flattened masks: row `a`, column `k` of the reshape to [200, 200704]. -/
def flat (x0 : (⟨S200x448x448, .f32⟩ : BufTy).Contents (Elt Ideal)) (a : Fin 200) (k : Fin 200704) : EReal :=
  val_main_v0 (F := Ideal) x0 (ix2 a k)

/-- The row sums: the size of mask `a`. -/
theorem v1_at (x0 : (⟨S200x448x448, .f32⟩ : BufTy).Contents (Elt Ideal)) (a : Fin 200) :
    val_main_v1 (F := Ideal) x0 (ix1 a) = Cert.Spec.rowSum (flat x0) a := by
  rw [val_main_v1_apply, val_main_cst_apply]
  unfold Cert.Spec.rowSum flat
  rw [Ideal.ofBits_def, Ideal.ofBits_zero_f32, zero_add]
  refine Finset.sum_congr rfl fun k _ => ?_
  exact congrArg (val_main_v0 (F := Ideal) x0) (funext fun d => Fin.ext (by match d with | ⟨0,_⟩ => rfl | ⟨1,_⟩ => rfl))

/-- The product of the flattened masks with their transpose: the intersections. -/
theorem v3_at (x0 : (⟨S200x448x448, .f32⟩ : BufTy).Contents (Elt Ideal)) (a b : Fin 200) :
    val_main_v3 (F := Ideal) x0 (ix2 a b) = Cert.Spec.inter (flat x0) a b := by
  rw [val_main_v3_apply]
  unfold Cert.Spec.inter flat
  refine Finset.sum_congr rfl fun k _ => ?_
  rw [val_main_v2_apply]
  have e1 : lidx_main_v3 (ix2 a b) k = ix2 a k :=
    funext fun d => Fin.ext (by match d with | ⟨0,_⟩ => rfl | ⟨1,_⟩ => rfl)
  have e2 : idx_main_v2 (ridx_main_v3 (ix2 a b) k) = ix2 b k :=
    funext fun d => Fin.ext (by match d with | ⟨0,_⟩ => rfl | ⟨1,_⟩ => rfl)
  rw [e1, e2]

/-- On coordinates below 200 the signed comparison `i + 0 ≥ j` of 32-bit words holds exactly when `i < j` fails. -/
theorem sge_word (i j : Fin 200) :
    IntOp.cmpi .sge (IntOp.addi (BitVec.ofNat 32 i.val) 0#32) (BitVec.ofNat 32 j.val) = if i.val < j.val then 0#1 else 1#1 := by
  have hi : (BitVec.ofNat 32 i.val).toNat = i.val := by rw [BitVec.toNat_ofNat]; have := i.isLt; omega
  have hj : (BitVec.ofNat 32 j.val).toNat = j.val := by rw [BitVec.toNat_ofNat]; have := j.isLt; omega
  have h0 : IntOp.addi (BitVec.ofNat 32 i.val) 0#32 = BitVec.ofNat 32 i.val := by unfold IntOp.addi; exact BitVec.add_zero _
  rw [h0]
  have key := StableHlo.Predicate.sge_iff_toNat (a := BitVec.ofNat 32 i.val) (b := BitVec.ofNat 32 j.val)
    (by rw [hi]; have := i.isLt; omega) (by rw [hj]; have := j.isLt; omega)
  rw [hi, hj] at key
  by_cases h : i.val < j.val
  · rw [if_pos h]; exact eq_zero_of_ne_one (fun e => by have := key.mp e; omega)
  · rw [if_neg h]; exact key.mpr (by omega)

/-- The first upper-triangle mask at (i, j). -/
theorem tri0_at (i j : Fin 200) :
    val_main_call0_v4 (F := Ideal) (ix2 i j) = if i.val < j.val then 0#1 else 1#1 := by
  rw [val_main_call0_v4_apply, val_main_call0_v2_apply, val_main_call0_v0_apply, val_main_call0_v1_apply,
    val_main_call0_c_apply, val_main_call0_v3_apply]
  exact sge_word i j

/-- The second upper-triangle mask at (i, j). -/
theorem tri1_at (i j : Fin 200) :
    val_main_call1_v4 (F := Ideal) (ix2 i j) = if i.val < j.val then 0#1 else 1#1 := by
  rw [val_main_call1_v4_apply, val_main_call1_v2_apply, val_main_call1_v0_apply, val_main_call1_v1_apply,
    val_main_call1_c_apply, val_main_call1_v3_apply]
  exact sge_word i j

/-- The intersection over union at (i, j). -/
theorem v10_at (x0 : (⟨S200x448x448, .f32⟩ : BufTy).Contents (Elt Ideal)) (i j : Fin 200) :
    val_main_v10 (F := Ideal) x0 (ix2 i j)
      = Ideal.div (Cert.Spec.inter (flat x0) i j)
          (Cert.Spec.rowSum (flat x0) j + Cert.Spec.rowSum (flat x0) i - Cert.Spec.inter (flat x0) i j) := by
  rw [val_main_v10_apply, val_main_v9_apply, val_main_v8_apply, val_main_v6_apply, val_main_v4_apply,
    val_main_v7_apply, val_main_v5_apply, v3_at]
  have e6 : idx_main_v4 (idx_main_v6 (ix2 i j)) = ix1 j := funext fun d => Fin.ext (by match d with | ⟨0,_⟩ => rfl)
  have e7 : idx_main_v5 (idx_main_v7 (ix2 i j)) = ix1 i := funext fun d => Fin.ext (by match d with | ⟨0,_⟩ => rfl)
  rw [e6, e7, v1_at, v1_at]
  simp only [Ideal.hostDivf_def, Ideal.subf_def, Ideal.addf_def]

/-- The overlap kept above the diagonal. -/
theorem v11_at (x0 : (⟨S200x448x448, .f32⟩ : BufTy).Contents (Elt Ideal)) (i j : Fin 200) :
    val_main_v11 (F := Ideal) x0 (ix2 i j)
      = if i.val < j.val then Ideal.div (Cert.Spec.inter (flat x0) i j)
          (Cert.Spec.rowSum (flat x0) j + Cert.Spec.rowSum (flat x0) i - Cert.Spec.inter (flat x0) i j) else 0 := by
  rw [val_main_v11_apply, tri0_at, v10_at, val_main_call0_v5_apply, val_main_call0_cst_apply, Ideal.ofBits_def,
    Ideal.ofBits_zero_f32]
  by_cases h : i.val < j.val
  · rw [if_pos h, if_pos h, select_zero]
  · rw [if_neg h, if_neg h, select_one]

/-- The same-label indicator at (i, j). -/
theorem v17_at (x2 : (⟨S200, .i32⟩ : BufTy).Contents (Elt Ideal)) (i j : Fin 200) :
    val_main_v17 (F := Ideal) x2 (ix2 i j) = if x2 (ix1 j) = x2 (ix1 i) then 1 else 0 := by
  rw [val_main_v17_apply, val_main_v16_apply, val_main_v14_apply, val_main_v12_apply, val_main_v15_apply,
    val_main_v13_apply]
  have e14 : idx_main_v12 (idx_main_v14 (ix2 i j)) = ix1 j := funext fun d => Fin.ext (by match d with | ⟨0,_⟩ => rfl)
  have e15 : idx_main_v13 (idx_main_v15 (ix2 i j)) = ix1 i := funext fun d => Fin.ext (by match d with | ⟨0,_⟩ => rfl)
  rw [e14, e15]
  by_cases h : x2 (ix1 j) = x2 (ix1 i)
  · rw [if_pos h, StableHlo.Predicate.cmpi_eq_iff.mpr h]
    show (((1#1 : BitVec 1).toNat : ℝ) : EReal) = 1
    simp
  · rw [if_neg h, eq_zero_of_ne_one (fun e => h (StableHlo.Predicate.cmpi_eq_iff.mp e))]
    show (((0#1 : BitVec 1).toNat : ℝ) : EReal) = 0
    simp

/-- The same-label indicator kept above the diagonal. -/
theorem v18_at (x2 : (⟨S200, .i32⟩ : BufTy).Contents (Elt Ideal)) (i j : Fin 200) :
    val_main_v18 (F := Ideal) x2 (ix2 i j)
      = if i.val < j.val then (if x2 (ix1 j) = x2 (ix1 i) then 1 else 0) else 0 := by
  rw [val_main_v18_apply, tri1_at, v17_at, val_main_call1_v5_apply, val_main_call1_cst_apply, Ideal.ofBits_def,
    Ideal.ofBits_zero_f32]
  by_cases h : i.val < j.val
  · rw [if_pos h, if_pos h, select_zero]
  · rw [if_neg h, if_neg h, select_one]

/-- The overlap matrix at (i, j). -/
theorem v19_at (x0 : (⟨S200x448x448, .f32⟩ : BufTy).Contents (Elt Ideal)) (x2 : (⟨S200, .i32⟩ : BufTy).Contents (Elt Ideal))
    (i j : Fin 200) :
    val_main_v19 (F := Ideal) x0 x2 (ix2 i j)
      = Cert.Spec.dmat (Cert.Spec.inter (flat x0)) (Cert.Spec.rowSum (flat x0)) (fun a => x2 (ix1 a)) i j := by
  rw [val_main_v19_apply, v11_at, v18_at]
  rfl

/-- The column reduction's shape fact: dropping the row axis of [200, 200] leaves [200]. -/
theorem red0 : S200x200.Reduces [0] S200 := by decide

/-- Column `i` of [200, 200] at row `r`: the index (r, i). -/
theorem lift_at (i r : Fin 200) : red0.lift (ix1 i) r = ix2 r i := by
  funext c
  apply Fin.ext
  show Shape.Reduces.liftVal red0 (ix1 i) r.val c = (ix2 r i c).val
  unfold Shape.Reduces.liftVal
  match c with
  | ⟨0, _⟩ => rfl
  | ⟨1, _⟩ => rfl

/-- The compensation: the largest overlap in column `i`. -/
theorem v20_at (x0 : (⟨S200x448x448, .f32⟩ : BufTy).Contents (Elt Ideal)) (x2 : (⟨S200, .i32⟩ : BufTy).Contents (Elt Ideal))
    (i : Fin 200) :
    val_main_v20 (F := Ideal) x0 x2 (ix1 i)
      = Cert.Spec.comp (Cert.Spec.dmat (Cert.Spec.inter (flat x0)) (Cert.Spec.rowSum (flat x0)) (fun a => x2 (ix1 a))) i := by
  unfold val_main_v20
  refine (Host.reduce_eq_fold_single FloatOps.maximumf _ _ reducesTo_S200x200_S200_d0 red0 h_S_ (ix1 i)).trans ?_
  show (Finset.univ : Finset (Fin 200)).fold max (Ideal.ofBits .f32 0xFF800000#32)
      (fun r => val_main_v19 (F := Ideal) x0 x2 (red0.lift (ix1 i) r)) = _
  unfold Cert.Spec.comp
  exact Finset.fold_congr fun r _ => (congrArg (val_main_v19 (F := Ideal) x0 x2) (lift_at i r)).trans (v19_at x0 x2 r i)

/-- The decay of the pair (i, j). -/
theorem v28_at (x0 : (⟨S200x448x448, .f32⟩ : BufTy).Contents (Elt Ideal)) (x2 : (⟨S200, .i32⟩ : BufTy).Contents (Elt Ideal))
    (i j : Fin 200) :
    val_main_v28 (F := Ideal) x0 x2 (ix2 i j)
      = Ideal.exp (Ideal.ofBits .f32 0x40000000#32
          * (Cert.Spec.comp (Cert.Spec.dmat (Cert.Spec.inter (flat x0)) (Cert.Spec.rowSum (flat x0)) (fun a => x2 (ix1 a))) i
              * Cert.Spec.comp (Cert.Spec.dmat (Cert.Spec.inter (flat x0)) (Cert.Spec.rowSum (flat x0)) (fun a => x2 (ix1 a))) i
            - Cert.Spec.dmat (Cert.Spec.inter (flat x0)) (Cert.Spec.rowSum (flat x0)) (fun a => x2 (ix1 a)) i j
              * Cert.Spec.dmat (Cert.Spec.inter (flat x0)) (Cert.Spec.rowSum (flat x0)) (fun a => x2 (ix1 a)) i j)) := by
  rw [val_main_v28_apply, val_main_v27_apply, val_main_v26_apply, val_main_cst_1_apply, val_main_v25_apply,
    val_main_v24_apply, val_main_v22_apply, val_main_v21_apply, val_main_v23_apply, v19_at]
  have e : idx_main_v21 (idx_main_v24 (ix2 i j)) = ix1 i := funext fun d => Fin.ext (by match d with | ⟨0,_⟩ => rfl)
  rw [e, v20_at]
  simp only [Ideal.hostUnary_exp_def, Ideal.mulf_def, Ideal.subf_def, Ideal.ofBits_def]

/-- The coefficient: the smallest decay in column `j`. -/
theorem v29_at (x0 : (⟨S200x448x448, .f32⟩ : BufTy).Contents (Elt Ideal)) (x2 : (⟨S200, .i32⟩ : BufTy).Contents (Elt Ideal))
    (j : Fin 200) :
    val_main_v29 (F := Ideal) x0 x2 (ix1 j)
      = Cert.Spec.coeff (Cert.Spec.dmat (Cert.Spec.inter (flat x0)) (Cert.Spec.rowSum (flat x0)) (fun a => x2 (ix1 a))) j := by
  unfold val_main_v29
  refine (Host.reduce_eq_fold_single FloatOps.minimumf _ _ reducesTo_S200x200_S200_d0 red0 h_S_ (ix1 j)).trans ?_
  show (Finset.univ : Finset (Fin 200)).fold min (Ideal.ofBits .f32 0x7F800000#32)
      (fun r => val_main_v28 (F := Ideal) x0 x2 (red0.lift (ix1 j) r)) = _
  unfold Cert.Spec.coeff
  exact Finset.fold_congr fun r _ => (congrArg (val_main_v28 (F := Ideal) x0 x2) (lift_at j r)).trans (v28_at x0 x2 r j)

theorem ref_apply (x0 : (⟨S200x448x448, .f32⟩ : BufTy).Contents (Elt Ideal)) (x1 : (⟨S200, .f32⟩ : BufTy).Contents (Elt Ideal))
    (x2 : (⟨S200, .i32⟩ : BufTy).Contents (Elt Ideal)) (j : Fin 200) :
    val_main_v30 (F := Ideal) x0 x1 x2 (ix1 j)
      = Cert.Spec.out (Cert.Spec.inter (flat x0)) (Cert.Spec.rowSum (flat x0)) (fun a => x2 (ix1 a)) (fun b => x1 (ix1 b)) j := by
  rw [val_main_v30_apply, v29_at]
  rfl

end Cert.ReferenceIdeal.RefValue

end
-- ==== Proof.Bridge.lean ====
/-
  The two programs compute one function.

  The kernel's result, entry `j`: the second call's payload of the first call's two result arrays, read through the
  cast of the [1, 200] row to a vector, is the decayed score `Spec.out` of the intersection matrix and the row sums of
  the flattened masks, the labels and the scores. The reference's result, entry `j`, is the same function of its own
  arguments, which agree with the kernel's.
-/
import proofs.«118613_j10084583211138_1_alg».proof.Defs
import proofs.«118613_j10084583211138_1_alg».proof.Proof.Gen.Kernel
import proofs.«118613_j10084583211138_1_alg».proof.Proof.Gen.Kernel.Frame
import proofs.«118613_j10084583211138_1_alg».proof.Proof.Gen.KernelIdeal
import proofs.«118613_j10084583211138_1_alg».proof.Proof.Gen.KernelIdeal.Frame
import proofs.«118613_j10084583211138_1_alg».proof.Proof.Gen.ReferenceIdeal
import proofs.«118613_j10084583211138_1_alg».proof.Proof.Gen.Pre_finite_inputs
import proofs.«118613_j10084583211138_1_alg».proof.Proof.RunValue
import proofs.«118613_j10084583211138_1_alg».proof.Proof.DecayValue
import proofs.«118613_j10084583211138_1_alg».proof.Proof.StatsValue
import proofs.«118613_j10084583211138_1_alg».proof.Proof.DecayPayload
import proofs.«118613_j10084583211138_1_alg».proof.Proof.RefValue
import Idealize.ShloMosaic.Lib.ValueLayout

noncomputable section

namespace Cert.Proof.Bridge

open Idealize.ShloMosaic Idealize.ShloMosaic.TcCoe Idealize.SL.Sem Idealize.ShloMosaic.ValueIdx

/-- A vector of `a` entries cast to a column [a, 1] reads, at (i, u), the vector at i. -/
theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The decayed score depends on its four arguments only through their values. -/
theorem out_congr {I I' : Fin 200 → Fin 200 → EReal} {s s' : Fin 200 → EReal} {lab lab' : Fin 200 → BitVec 32}
    {sc sc' : Fin 200 → EReal} (j : Fin 200) (hI : I = I') (hs : s = s') (hl : lab = lab') (hc : sc = sc') :
    Cert.Spec.out I s lab sc j = Cert.Spec.out I' s' lab' sc' j := by
  subst hI hs hl hc; rfl

section Kernel

open Cert.KernelIdeal Cert.KernelIdeal.Gen

variable (m : (ℓ : Loc nD τ sig) → Buf (Elt Ideal) ℓ) (ρ : Dev nD → PrngReg)

/-- Entry `j` of the kernel's result buffer when @main returns. -/
theorem kernel_apply (c : Dev nD) (j : Fin 200) :
    W5 m ρ c (Proc.devRef .tc main_v5) (ix1 j)
      = Cert.Spec.out (Cert.Spec.inter (Cert.KernelIdeal.StatsValue.flat m c)) (Cert.Spec.rowSum (Cert.KernelIdeal.StatsValue.flat m c))
          (fun a => m ((c.tc : Thread nD τ).loc main_arg2) (ix1 a)) (fun b => m ((c.tc : Thread nD τ).loc main_arg1) (ix1 b)) j := by
  rw [Cert.KernelIdeal.DecayValue.W5_main_v5]
  refine (shapeCast_1a_a_apply _ shapeCasts_S1x200_S200 j).trans ?_
  refine (Cert.KernelIdeal.DecayPayload.k1_pay1_apply _ _ _ _ j).trans ?_
  exact out_congr j
    (funext fun a => funext fun b => Cert.KernelIdeal.StatsValue.inter_final m ρ c a b)
    (funext fun a => Cert.KernelIdeal.StatsValue.sum_final m ρ c a)
    (funext fun a => shapeCast_col_apply _ shapeCasts_S200_S200x1 a 0)
    (funext fun b => shapeCast_a_1a_apply _ shapeCasts_S200_S1x200 0 b)

end Kernel

section Reference

open Cert.ReferenceIdeal Cert.ReferenceIdeal.Gen

/-- Entry `j` of the reference's result. -/
theorem reference_apply (m' : (ℓ : Loc nD τ sig) → Buf (Elt Ideal) ℓ) (c : Dev nD) (j : Fin 200) :
    Cert.ReferenceIdeal.Value.res_main_v30 m' c (ix1 j)
      = Cert.Spec.out (Cert.Spec.inter (Cert.ReferenceIdeal.RefValue.flat (m' ((c.tc : Thread nD τ).loc main_arg0))))
          (Cert.Spec.rowSum (Cert.ReferenceIdeal.RefValue.flat (m' ((c.tc : Thread nD τ).loc main_arg0))))
          (fun a => m' ((c.tc : Thread nD τ).loc main_arg2) (ix1 a)) (fun b => m' ((c.tc : Thread nD τ).loc main_arg1) (ix1 b)) j := by
  rw [Cert.ReferenceIdeal.Read.val_main_v30_eq]
  exact Cert.ReferenceIdeal.RefValue.ref_apply _ _ _ j

end Reference

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result at one vector: entry `j` is the decayed score of mask `j`, computed
    from arguments that agree. -/
theorem algebraic : Cert.algebraic_KernelIdeal_ReferenceIdeal := by
  intro m ρ m' ρ' _ hagree
  refine ⟨fun c => Cert.KernelIdeal.Gen.W5 m ρ c (Proc.devRef .tc Cert.KernelIdeal.main_v5),
    Cert.KernelIdeal.GenRun.run_value m ρ, ?_⟩
  refine (θ_run Cert.ReferenceIdeal.defs _ _).mono (fun _ h c => ⟨(h c).1.trans ?_, (h c).2⟩)
    (Cert.ReferenceIdeal.Value.run (F := Ideal) m' ρ')
  funext i
  obtain ⟨j, rfl⟩ : ∃ j : Fin 200, i = ix1 j := ⟨i 0, eq_ix1 i⟩
  rw [reference_apply, (hagree c).1, (hagree c).2.1, (hagree c).2.2]
  exact (kernel_apply m ρ c j).symm

end Cert.Proof.Bridge

end
-- ==== Proof.lean ====
/-
  The certificate of the matrix-NMS score decay kernel against its jnp reference, over the extended reals.

  The kernel is two pallas_calls. The first walks the 200704 columns of the flattened masks in sixteen blocks and
  accumulates, into two blocks that stay resident, the intersection matrix I (a, b) = sum over columns of x (a, k) x (b, k)
  and the mask sizes s (a) = sum over columns of x (a, k); the sums over sixteen blocks of block sums are the sums over
  all columns, since addition of extended reals is commutative and associative. The second call computes from I, s, the
  labels and the scores, in one step on whole arrays, the decayed scores: overlap I / (s_j + s_i - I) above the diagonal
  between masks of one label, its column maximum as compensation, exp (2 (comp_i ^ 2 - overlap_ij ^ 2)), the column
  minimum, times the score. The reference computes the same quantities by one matrix product, one row sum and the same
  pointwise chain, its upper triangle taken by a select on "row >= column". Both results are `Cert.Spec.out` of the same
  arguments (Proof/Spec.lean); no step needs the inputs to be finite.

  The frames of the two kernel programs are the generated ones; the reference's frame is its generated run with the
  result dropped; the ideal pass rewrote nothing, so `preserves` is trivial.
-/
import proofs.«118613_j10084583211138_1_alg».proof.Defs
import proofs.«118613_j10084583211138_1_alg».proof.Proof.Gen.Kernel
import proofs.«118613_j10084583211138_1_alg».proof.Proof.Gen.Kernel.Skeleton
import proofs.«118613_j10084583211138_1_alg».proof.Proof.Gen.Kernel.Launch
import proofs.«118613_j10084583211138_1_alg».proof.Proof.Gen.Kernel.Points
import proofs.«118613_j10084583211138_1_alg».proof.Proof.Gen.Kernel.Frame
import proofs.«118613_j10084583211138_1_alg».proof.Proof.Gen.KernelIdeal
import proofs.«118613_j10084583211138_1_alg».proof.Proof.Gen.KernelIdeal.Skeleton
import proofs.«118613_j10084583211138_1_alg».proof.Proof.Gen.KernelIdeal.Launch
import proofs.«118613_j10084583211138_1_alg».proof.Proof.Gen.KernelIdeal.Points
import proofs.«118613_j10084583211138_1_alg».proof.Proof.Gen.KernelIdeal.Frame
import proofs.«118613_j10084583211138_1_alg».proof.Proof.Gen.ReferenceIdeal
import proofs.«118613_j10084583211138_1_alg».proof.Proof.Gen.Pre_finite_inputs
import proofs.«118613_j10084583211138_1_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Bridge.frame_k, Cert.Proof.Bridge.frame_ki, Cert.Proof.Bridge.frame_ri, Cert.Proof.Bridge.preserves,
  Cert.Proof.Bridge.algebraic⟩

end Cert.Proof

end
